-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32000 : Shape := ⟨2, ![2048, 32000]⟩
abbrev S16384 : Shape := ⟨1, ![16384]⟩
abbrev S_ : Shape := ⟨0, ![]⟩

class Facts : Prop where
  bcast_S_S2048x32000 : S_.BroadcastsInDim S2048x32000 (![] : Fin 0 → Fin S2048x32000.rank)
  reducesTo_S2048x32000_S_d0_1 : S2048x32000.ReducesTo [0, 1] S_
  h_S_ : 0 < S_.numel

variable [Facts]

def fn {F : FTy → Type} [FloatOps F] (main_arg0 : FVec F S2048x32000 .f32) (main_arg1 : IVec S16384 32) (main_arg2 : IVec S16384 32) : IVec S_ 1 :=
  let main_v0 : FVec F S2048x32000 .f32 := Host.absf main_arg0
  let main_cst : FVec F S_ .f32 := constant S_ .f32 0x7F800000#32
  let main_v1 : FVec F S2048x32000 .f32 := broadcastInDim S2048x32000 ![] bcast_S_S2048x32000 main_cst
  let main_v2 : IVec S2048x32000 1 := cmpf .olt main_v0 main_v1
  let main_c : IVec S_ 1 := constantI S_ 1 1#1
  let main_v3 : IVec S_ 1 := (fun x v => Host.reduce IntOp.andi x v reducesTo_S2048x32000_S_d0_1 h_S_) main_v2 main_c
  main_v3
-- ==== Kernel.lean ====
abbrev S2048x32000 : Shape := ⟨2, ![2048, 32000]⟩
abbrev S16384 : Shape := ⟨1, ![16384]⟩
abbrev S2048x1 : Shape := ⟨2, ![2048, 1]⟩
abbrev S512x3200 : Shape := ⟨2, ![512, 3200]⟩
abbrev S512x1 : Shape := ⟨2, ![512, 1]⟩
abbrev S512 : Shape := ⟨1, ![512]⟩
abbrev S2048 : Shape := ⟨1, ![2048]⟩
abbrev S_ : Shape := ⟨0, ![]⟩
abbrev S16384x1 : Shape := ⟨2, ![16384, 1]⟩
abbrev S16384x2 : Shape := ⟨2, ![16384, 2]⟩

abbrev nBuf : Space → Nat
  | .hbm => 37
  | .vmem => 6
  | .smem => 0
  | _ => 0

abbrev bufTy : (tb : Table) → Fin (tcTables nBuf tb) → BufTy
  | .hbm, ⟨0, _⟩ => ⟨S2048x32000, .f32⟩
  | .hbm, ⟨1, _⟩ => ⟨S16384, .i32⟩
  | .hbm, ⟨2, _⟩ => ⟨S16384, .i32⟩
  | .hbm, ⟨3, _⟩ => ⟨S2048x1, .f32⟩
  | .hbm, ⟨4, _⟩ => ⟨S2048, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x1, .i32⟩
  | .hbm, ⟨21, _⟩ => ⟨S16384x2, .i32⟩
  | .hbm, ⟨22, _⟩ => ⟨S16384, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v25 : BitVec 1 := Scalar.cmpi .eq arg1 c9_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  broadcasts_S512x1_S512x3200 : S512x1.Broadcasts S512x3200
  shapeCasts_S2048x1_S2048 : S2048x1.ShapeCasts S2048
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384_S_d0 : S16384.ReducesTo [0] S_
  h_S_ : 0 < S_.numel
  gather_S2048x32000_S16384x2_S16384_n_01_n_n_01_1_11_wf : GatherDims.WF S2048x32000 S16384x2 S16384 [] [0, 1] [] [0, 1] [] 1 ![1, 1]
  gather_S2048_S16384x1_S16384_n_0_n_n_0_1_1_wf : GatherDims.WF S2048 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S2048x32000.size a
  hwx0_0 : ∀ i : grid0.Coords, EltTy.bits .f32 = 32 ∨ (Rect.block (s := S2048x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .f32 = 32 ∨ (Rect.block (s := S2048x1) S512x1.size (cc0_transform_1 i) (hinb0_1 i)).WholeWords (EltTy.packing .f32)

variable [Facts₀]

def gather_S2048x32000_S16384x2_S16384_n_01_n_n_01_1_11 : GatherDims S2048x32000 S16384x2 S16384 where
  offsetDims := []
  collapsedSliceDims := [0, 1]
  operandBatchingDims := []
  startIndicesBatchingDims := []
  startIndexMap := [0, 1]
  indexVectorDim := 1
  sliceSizes := ![1, 1]
  wf := gather_S2048x32000_S16384x2_S16384_n_01_n_n_01_1_11_wf
def gather_S2048_S16384x1_S16384_n_0_n_n_0_1_1 : GatherDims S2048 S16384x1 S16384 where
  offsetDims := []
  collapsedSliceDims := [0]
  operandBatchingDims := []
  startIndicesBatchingDims := []
  startIndexMap := [0]
  indexVectorDim := 1
  sliceSizes := ![1]
  wf := gather_S2048_S16384x1_S16384_n_0_n_n_0_1_1_wf

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S2048x32000 : Shape := ⟨2, ![2048, 32000]⟩
abbrev S16384 : Shape := ⟨1, ![16384]⟩
abbrev S_ : Shape := ⟨0, ![]⟩
abbrev S2048 : Shape := ⟨1, ![2048]⟩
abbrev S2048x1 : Shape := ⟨2, ![2048, 1]⟩
abbrev S16384x1 : Shape := ⟨2, ![16384, 1]⟩
abbrev S16384x2 : Shape := ⟨2, ![16384, 2]⟩

abbrev nBuf : Space → Nat
  | .hbm => 41
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S16384, .i32⟩
  | .hbm, ⟨2, _⟩ => ⟨S16384, .i32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S2048x1, .f32⟩
  | .hbm, ⟨9, _⟩ => ⟨S2048x32000, .f32⟩
  | .hbm, ⟨10, _⟩ => ⟨S2048x32000, .f32⟩
  | .hbm, ⟨11, _⟩ => ⟨S2048x32000, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x1, .f32⟩
  | .hbm, ⟨16, _⟩ => ⟨S2048x32000, .f32⟩
  | .hbm, ⟨17, _⟩ => ⟨S2048x32000, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x1, .i32⟩
  | .hbm, ⟨34, _⟩ => ⟨S16384x2, .i32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩

abbrev nD : Nat := 1
abbrev τ : Topo := Topo.v7x

variable {F : FTy → Type} [FloatOps F]

class Facts₀ : Prop where
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384_S_d0 : S16384.ReducesTo [0] S_
  gather_S2048x32000_S16384x2_S16384_n_01_n_n_01_1_11_wf : GatherDims.WF S2048x32000 S16384x2 S16384 [] [0, 1] [] [0, 1] [] 1 ![1, 1]

variable [Facts₀]

def gather_S2048x32000_S16384x2_S16384_n_01_n_n_01_1_11 : GatherDims S2048x32000 S16384x2 S16384 where
  offsetDims := []
  collapsedSliceDims := [0, 1]
  operandBatchingDims := []
  startIndicesBatchingDims := []
  startIndexMap := [0, 1]
  indexVectorDim := 1
  sliceSizes := ![1, 1]
  wf := gather_S2048x32000_S16384x2_S16384_n_01_n_n_01_1_11_wf

class Facts : Prop extends Facts₀ where

variable [Facts]
-- ==== Proof.LibTypedRef.lean ====
/-
  Typed references: writing a value through a typed reference and reading it back is the identity.

  A typed reference carries the type of the tensor value its buffer holds together with a proof that the buffer's
  declared type is that type; contents are moved between the two types along that proof. Moving there and back
  along one proof is the identity, whatever the reference.
-/
import Idealize.ShloMosaic.Lib.StableHlo

namespace Idealize.ShloMosaic.StableHlo.TRef

variable {sig : RefSig} {Val : EltTy → Type} {T : BufTy}

/-- Contents written through a typed reference and read back through it are unchanged. -/
theorem ofBuf_toBuf (x : TRef sig T) (v : T.Contents Val) : x.ofBuf (x.toBuf v) = v := by
  obtain ⟨r, h, _, _⟩ := x
  subst h
  rfl

end Idealize.ShloMosaic.StableHlo.TRef
-- ==== Proof.KernelPieces.lean ====
/-
  What each control case of the kernel body leaves behind, as the body's stored values of what the point loads.

  The body runs in three cases over the column-tile coordinate `k`: the first tile of a row block (`k = 0`: the two
  carried columns are reset to `−∞` and `0` and then updated from the tile), a middle tile (updated from what the tile
  before left), and the last tile (`k = 9`: updated, and the output block written from the updated columns). In each
  case a carried column ends holding its LAST store's value, and a load after a store reads that store's value.
-/
import proofs.«102450_j40424232190041_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The zero offsets of a whole-buffer access, as the constant function. -/
theorem zero_offsets : (![0, 0] : Fin 2 → Nat) = fun _ => 0 := by decide

/-- First tile: the running maximum is the update of the reset value `−∞` by the tile. -/
theorem max_first (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) :
    sout0_A_0 (F := F) c i arg2 harg2 arg3 harg3 arg4 harg4 arg5 harg5 hc0 hc1 x0 = k0_pay5 x0 (k0_pay1 (F := F)) := by
  unfold sout0_A_0
  rw [View.read_writes_eq_canon _ _ _ (scover0_A_0 c i arg2 harg2 arg3 harg3 arg4 harg4 arg5 harg5 hc0 hc1 x0)]
  unfold kernelRun0_A
  dsimp only
  sl_unfold_words
  first
    | rw [View.canon_cons_unit_zero (S := S512x1) zero_offsets]
    | rw [View.canon_unit_zero (S := S512x1) zero_offsets]
  simp only [View.readAt_eq_ld, harg2.read_unread, harg4.read_unread, harg5.read_unread,
    View.ld_unit_zero (S := S512x3200) zero_offsets, View.ld_unit_zero (S := S512x1) zero_offsets,
    View.readCov_unit_zero (S := S512x1) _ zero_offsets]

/-- First tile: the running sum is the update of the reset values (`−∞`, `0`) by the tile. -/
theorem sum_first (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) :
    sout0_A_1 (F := F) c i arg2 harg2 arg3 harg3 arg4 harg4 arg5 harg5 hc0 hc1 x0 = k0_pay4 x0 (k0_pay1 (F := F)) (k0_pay1 (F := F)) (k0_pay2 (F := F)) := by
  unfold sout0_A_1
  rw [View.read_writes_eq_canon _ _ _ (scover0_A_1 c i arg2 harg2 arg3 harg3 arg4 harg4 arg5 harg5 hc0 hc1 x0)]
  unfold kernelRun0_A
  dsimp only
  sl_unfold_words
  first
    | rw [View.canon_cons_unit_zero (S := S512x1) zero_offsets]
    | rw [View.canon_unit_zero (S := S512x1) zero_offsets]
  simp only [View.readAt_eq_ld, harg2.read_unread, harg4.read_unread, harg5.read_unread,
    View.ld_unit_zero (S := S512x3200) zero_offsets, View.ld_unit_zero (S := S512x1) zero_offsets,
    View.readCov_unit_zero (S := S512x1) _ zero_offsets]

/-- Middle tile: the running maximum is the update of what the tile before left. -/
theorem max_middle (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 xs1 : Vec F S512x1 .f32) :
    sout0_B_0 (F := F) c i arg2 harg2 arg3 harg3 arg4 harg4 arg5 harg5 hc0 hc1 x0 xs0 xs1 = k0_pay5 x0 xs0 := by
  unfold sout0_B_0
  rw [View.read_writes_eq_canon _ _ _ (scover0_B_0 c i arg2 harg2 arg3 harg3 arg4 harg4 arg5 harg5 hc0 hc1 x0 xs0 xs1)]
  unfold kernelRun0_B
  dsimp only
  sl_unfold_words
  first
    | rw [View.canon_cons_unit_zero (S := S512x1) zero_offsets]
    | rw [View.canon_unit_zero (S := S512x1) zero_offsets]
  simp only [View.readAt_eq_ld, harg2.read_unread, harg4.read_unread, harg5.read_unread,
    View.ld_unit_zero (S := S512x3200) zero_offsets, View.ld_unit_zero (S := S512x1) zero_offsets,
    View.readCov_unit_zero (S := S512x1) _ zero_offsets]

/-- Middle tile: the running sum is the update of what the tile before left. -/
theorem sum_middle (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 xs1 : Vec F S512x1 .f32) :
    sout0_B_1 (F := F) c i arg2 harg2 arg3 harg3 arg4 harg4 arg5 harg5 hc0 hc1 x0 xs0 xs1 = k0_pay4 x0 xs0 xs0 xs1 := by
  unfold sout0_B_1
  rw [View.read_writes_eq_canon _ _ _ (scover0_B_1 c i arg2 harg2 arg3 harg3 arg4 harg4 arg5 harg5 hc0 hc1 x0 xs0 xs1)]
  unfold kernelRun0_B
  dsimp only
  sl_unfold_words
  first
    | rw [View.canon_cons_unit_zero (S := S512x1) zero_offsets]
    | rw [View.canon_unit_zero (S := S512x1) zero_offsets]
  simp only [View.readAt_eq_ld, harg2.read_unread, harg4.read_unread, harg5.read_unread,
    View.ld_unit_zero (S := S512x3200) zero_offsets, View.ld_unit_zero (S := S512x1) zero_offsets,
    View.readCov_unit_zero (S := S512x1) _ zero_offsets]

/-- Last tile: the running maximum is the update of what the tile before left. -/
theorem max_last (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 xs1 : Vec F S512x1 .f32) :
    sout0_C_0 (F := F) c i arg2 harg2 arg3 harg3 arg4 harg4 arg5 harg5 hc0 hc1 x0 xs0 xs1 = k0_pay5 x0 xs0 := by
  unfold sout0_C_0
  rw [View.read_writes_eq_canon _ _ _ (scover0_C_0 c i arg2 harg2 arg3 harg3 arg4 harg4 arg5 harg5 hc0 hc1 x0 xs0 xs1)]
  unfold kernelRun0_C
  dsimp only
  sl_unfold_words
  first
    | rw [View.canon_cons_unit_zero (S := S512x1) zero_offsets]
    | rw [View.canon_unit_zero (S := S512x1) zero_offsets]
  simp only [View.readAt_eq_ld, harg2.read_unread, harg4.read_unread, harg5.read_unread,
    View.ld_unit_zero (S := S512x3200) zero_offsets, View.ld_unit_zero (S := S512x1) zero_offsets,
    View.readCov_unit_zero (S := S512x1) _ zero_offsets]

/-- Last tile: the running sum is the update of what the tile before left. -/
theorem sum_last (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 xs1 : Vec F S512x1 .f32) :
    sout0_C_1 (F := F) c i arg2 harg2 arg3 harg3 arg4 harg4 arg5 harg5 hc0 hc1 x0 xs0 xs1 = k0_pay4 x0 xs0 xs0 xs1 := by
  unfold sout0_C_1
  rw [View.read_writes_eq_canon _ _ _ (scover0_C_1 c i arg2 harg2 arg3 harg3 arg4 harg4 arg5 harg5 hc0 hc1 x0 xs0 xs1)]
  unfold kernelRun0_C
  dsimp only
  sl_unfold_words
  first
    | rw [View.canon_cons_unit_zero (S := S512x1) zero_offsets]
    | rw [View.canon_unit_zero (S := S512x1) zero_offsets]
  simp only [View.readAt_eq_ld, harg2.read_unread, harg4.read_unread, harg5.read_unread,
    View.ld_unit_zero (S := S512x3200) zero_offsets, View.ld_unit_zero (S := S512x1) zero_offsets,
    View.readCov_unit_zero (S := S512x1) _ zero_offsets]

/-- Last tile: the output block is written from the updated maximum and the updated sum. -/
theorem out_last (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 xs1 : Vec F S512x1 .f32) :
    out0_C_1 (F := F) c i arg2 harg2 arg3 harg3 arg4 harg4 arg5 harg5 hc0 hc1 x0 xs0 xs1 = k0_pay6 (k0_pay5 x0 xs0) (k0_pay4 x0 xs0 xs0 xs1) := by
  unfold out0_C_1
  rw [View.read_writes_eq_canon _ _ _ (cover0_C_1 c i arg2 harg2 arg3 harg3 arg4 harg4 arg5 harg5 hc0 hc1 x0 xs0 xs1)]
  unfold kernelRun0_C
  dsimp only
  sl_unfold_words
  first
    | rw [View.canon_cons_unit_zero (S := S512x1) zero_offsets]
    | rw [View.canon_unit_zero (S := S512x1) zero_offsets]
  simp only [View.readAt_eq_ld, harg2.read_unread, harg4.read_unread, harg5.read_unread,
    View.ld_unit_zero (S := S512x3200) zero_offsets, View.ld_unit_zero (S := S512x1) zero_offsets,
    View.readCov_unit_zero (S := S512x1) _ zero_offsets]

end Cert.KernelIdeal.Pieces

end
-- ==== Proof.KernelCols.lean ====
/-
  The two carried columns and the output block after each grid point.

  The grid is 4 row blocks by 10 column tiles, walked row block by row block: point `t` is tile `t % 10` of row block
  `t / 10`. After a row block's first tile the carried columns are the update of the reset pair by that tile; after any
  later tile they are the update, by that tile, of what the point before left; and at a row block's last tile the output
  block is `maximum + log sum` of the columns that point leaves.
-/
import proofs.«102450_j40424232190041_1_alg».proof.Proof.KernelPieces

set_option maxRecDepth 16384

noncomputable section

namespace Cert.KernelIdeal.Cols

open Cert.KernelIdeal Cert.KernelIdeal.Gen Cert.KernelIdeal.Pieces
open Idealize.ShloMosaic Idealize.ShloMosaic.TcCoe
open Idealize.SL Idealize.SL.Sem

variable {F : FTy → Type} [FloatOps F]
variable (m : (ℓ : Loc nD τ sig) → Buf (Elt F) ℓ)

/-- The input tile grid point `t` sees, at its literal type. -/
abbrev tile (c : Dev nD) (t : Fin cfg0.N) : Vec F S512x3200 .f32 := iblk m c 0 t

/-- The running-maximum column after the point at position `n`. -/
abbrev maxCol (c : Dev nD) (n : ℕ) (hn : n < cfg0.N) : Vec F S512x1 .f32 := (outsAt0 m c n hn).2.1
/-- The running-sum column after the point at position `n`. -/
abbrev sumCol (c : Dev nD) (n : ℕ) (hn : n < cfg0.N) : Vec F S512x1 .f32 := (outsAt0 m c n hn).2.2
/-- The output block's staging contents after the point at position `n`. -/
abbrev outBlk (c : Dev nD) (n : ℕ) (hn : n < cfg0.N) : Vec F S512x1 .f32 := (outsAt0 m c n hn).1

/-- The position before a point's is a position. -/
theorem pred_lt (t : Fin cfg0.N) : t.val - 1 < cfg0.N := Nat.lt_of_le_of_lt (Nat.sub_le _ _) t.isLt

/-- After a row block's first tile: the reset pair updated by the tile. -/
theorem cols_first (c : Dev nD) (t : Fin cfg0.N) (h0 : t.val % 10 = 0) :
    maxCol m c t.val t.isLt = k0_pay5 (tile m c t) (k0_pay1 (F := F))
    ∧ sumCol m c t.val t.isLt = k0_pay4 (tile m c t) (k0_pay1 (F := F)) (k0_pay1 (F := F)) (k0_pay2 (F := F)) := by
  have h1 : ¬t.val % 10 = 9 := by omega
  unfold maxCol sumCol
  rw [outsAt0_A m c t h0 h1]
  dsimp only
  exact ⟨max_first (F := F) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
    sum_first (F := F) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)⟩

/-- After any later tile: what the point before left, updated by the tile. -/
theorem cols_next (c : Dev nD) (t : Fin cfg0.N) (h0 : ¬t.val % 10 = 0) :
    maxCol m c t.val t.isLt = k0_pay5 (tile m c t) (maxCol m c (t.val - 1) (pred_lt t))
    ∧ sumCol m c t.val t.isLt
        = k0_pay4 (tile m c t) (maxCol m c (t.val - 1) (pred_lt t)) (maxCol m c (t.val - 1) (pred_lt t)) (sumCol m c (t.val - 1) (pred_lt t)) := by
  unfold maxCol sumCol
  by_cases h1 : t.val % 10 = 9
  · rw [outsAt0_C m c t h0 h1]
    dsimp only
    exact ⟨max_last (F := F) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t)
        (outsAt0 m c (t.val - 1) (Nat.lt_of_le_of_lt (Nat.sub_le _ _) t.isLt)).2.1 (outsAt0 m c (t.val - 1) (Nat.lt_of_le_of_lt (Nat.sub_le _ _) t.isLt)).2.2,
      sum_last (F := F) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t)
        (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨max_middle (F := F) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t)
        (outsAt0 m c (t.val - 1) (Nat.lt_of_le_of_lt (Nat.sub_le _ _) t.isLt)).2.1 (outsAt0 m c (t.val - 1) (Nat.lt_of_le_of_lt (Nat.sub_le _ _) t.isLt)).2.2,
      sum_middle (F := F) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t)
        (outsAt0 m c (t.val - 1) (Nat.lt_of_le_of_lt (Nat.sub_le _ _) t.isLt)).2.1 (outsAt0 m c (t.val - 1) (Nat.lt_of_le_of_lt (Nat.sub_le _ _) t.isLt)).2.2⟩

/-- At a row block's last tile the output block is written from the columns that point leaves. -/
theorem out_last (c : Dev nD) (t : Fin cfg0.N) (h1 : t.val % 10 = 9) :
    outBlk m c t.val t.isLt = k0_pay6 (maxCol m c t.val t.isLt) (sumCol m c t.val t.isLt) := by
  have h0 : ¬t.val % 10 = 0 := by omega
  unfold outBlk maxCol sumCol
  rw [outsAt0_C m c t h0 h1]
  dsimp only
  rw [max_last (F := F) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t)
        (outsAt0 m c (t.val - 1) (Nat.lt_of_le_of_lt (Nat.sub_le _ _) t.isLt)).2.1 (outsAt0 m c (t.val - 1) (Nat.lt_of_le_of_lt (Nat.sub_le _ _) t.isLt)).2.2,
    sum_last (F := F) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t)
        (outsAt0 m c (t.val - 1) (Nat.lt_of_le_of_lt (Nat.sub_le _ _) t.isLt)).2.1 (outsAt0 m c (t.val - 1) (Nat.lt_of_le_of_lt (Nat.sub_le _ _) t.isLt)).2.2]
  exact Pieces.out_last (F := F) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t)
        (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Cols

end
-- ==== Proof.OnlineLse.lean ====
/-
  The mathematics of a streaming log-sum-exp, over the extended reals the idealized programs compute in.

  A row `y` of `N` reals is consumed `W` columns at a time. After the first `a` columns the running pair is
  `(m, l)` with `m` some real `μ` and `l = ∑_{c < a} exp (y c − μ)`: WHICH real `μ` is does not matter, because
  `μ + log ∑_c exp (y c − μ) = log ∑_c exp (y c)` for every real `μ`. One more tile `b` replaces `m` by
  `m' = max m (max of b)` and `l` by `l · exp (m − m') + ∑_j exp (b j − m')`, which is the same pair for `a + W`
  columns by `exp (u) · exp (v) = exp (u + v)` and distributivity — laws of the reals, which is why every entry is
  first shown to be a real. The first tile starts from `(−∞, 0)`: `0 · exp (−∞ − m') = 0`.
  The two-pass form — the maximum `M` of the whole row first, then `(y c − M) − log ∑_k exp (y k − M)` — is
  `y c − log ∑_k exp (y k)` for the same reason.
-/
import Idealize.ShloMosaic.PureOps.Ideal
import Mathlib.Analysis.SpecialFunctions.Log.Basic
import Mathlib.Analysis.SpecialFunctions.Exp

noncomputable section

open scoped BigOperators

namespace Cert.OnlineLse

open Idealize.ShloMosaic

/-- The logarithm of the sum of the exponentials of a finite row of reals. -/
def lse {N : ℕ} (y : Fin N → ℝ) : ℝ := Real.log (∑ c, Real.exp (y c))

/-- The exponential sum of the first `a` columns of a row, each entry shifted down by `μ`. -/
def partialSum {N : ℕ} (y : Fin N → ℝ) (a : ℕ) (μ : ℝ) : ℝ :=
  ∑ c ∈ Finset.univ.filter (fun c : Fin N => c.val < a), Real.exp (y c - μ)

/-- `(m, l)` is a running pair of the row `y` after its first `a` columns: `m` is a real `μ` and `l` the exponential
    sum of those columns shifted by `μ`. -/
def Running {N : ℕ} (y : Fin N → ℝ) (a : ℕ) (m l : EReal) : Prop :=
  ∃ μ : ℝ, m = (μ : EReal) ∧ l = ((partialSum y a μ : ℝ) : EReal)

/-- The maximum of a tile's entries as both programs take it: the fold of `max` from `−∞`. -/
def tileMax {W : ℕ} (b : Fin W → EReal) : EReal := (Finset.univ : Finset (Fin W)).fold max ⊥ b

/-! Coercion of reals into the extended reals commutes with max and with finite sums. -/

private theorem coe_max (r t : ℝ) : ((max r t : ℝ) : EReal) = max (r : EReal) (t : EReal) := by
  rcases le_total r t with h | h
  · rw [max_eq_right h, max_eq_right (EReal.coe_le_coe_iff.mpr h)]
  · rw [max_eq_left h, max_eq_left (EReal.coe_le_coe_iff.mpr h)]

private theorem coe_sum {ι : Type*} [DecidableEq ι] (s : Finset ι) (f : ι → ℝ) :
    ((∑ i ∈ s, f i : ℝ) : EReal) = ∑ i ∈ s, (f i : EReal) := by
  induction s using Finset.induction_on with
  | empty => simp
  | insert a s ha ih => rw [Finset.sum_insert ha, Finset.sum_insert ha, EReal.coe_add, ih]

/-! The fold of max from −∞ over real entries is −∞ or a real, and a real over a nonempty index set. -/

private theorem max_coe_bot_or_coe (r : ℝ) (x : EReal) (hx : x = ⊥ ∨ ∃ t : ℝ, x = (t : EReal)) :
    ∃ u : ℝ, max (r : EReal) x = (u : EReal) := by
  rcases hx with h | ⟨t, h⟩
  · exact ⟨r, by rw [h, max_eq_left bot_le]⟩
  · exact ⟨max r t, by rw [h, coe_max]⟩

private theorem fold_max_bot_or_coe {ι : Type*} [DecidableEq ι] (b : ι → EReal)
    (hb : ∀ j, ∃ r : ℝ, b j = (r : EReal)) (s : Finset ι) :
    s.fold max ⊥ b = ⊥ ∨ ∃ t : ℝ, s.fold max ⊥ b = (t : EReal) := by
  induction s using Finset.induction_on with
  | empty => left; rfl
  | insert a s ha ih =>
    right
    obtain ⟨r, hr⟩ := hb a
    rw [Finset.fold_insert ha, hr]
    exact max_coe_bot_or_coe r _ ih

private theorem fold_max_univ_coe {W : ℕ} (hW : 0 < W) (b : Fin W → EReal)
    (hb : ∀ j, ∃ r : ℝ, b j = (r : EReal)) :
    ∃ t : ℝ, (Finset.univ : Finset (Fin W)).fold max ⊥ b = (t : EReal) := by
  have h0 : (⟨0, hW⟩ : Fin W) ∉ (Finset.univ : Finset (Fin W)).erase ⟨0, hW⟩ := Finset.notMem_erase _ _
  obtain ⟨r, hr⟩ := hb ⟨0, hW⟩
  rw [← Finset.insert_erase (Finset.mem_univ (⟨0, hW⟩ : Fin W)), Finset.fold_insert h0, hr]
  exact max_coe_bot_or_coe r _ (fold_max_bot_or_coe b hb _)

/-! The columns below a + W are the columns below a together with the W columns a + j. -/

private theorem sum_filter_lt_add {N W a : ℕ} (f : Fin N → ℝ) (g : Fin W → Fin N)
    (hg : ∀ j, (g j).val = a + j.val) :
    ∑ c ∈ Finset.univ.filter (fun c : Fin N => c.val < a + W), f c
      = ∑ c ∈ Finset.univ.filter (fun c : Fin N => c.val < a), f c + ∑ j : Fin W, f (g j) := by
  have hsplit : Finset.univ.filter (fun c : Fin N => c.val < a + W)
      = Finset.univ.filter (fun c : Fin N => c.val < a)
        ∪ Finset.univ.filter (fun c : Fin N => a ≤ c.val ∧ c.val < a + W) := by
    ext c
    simp only [Finset.mem_filter, Finset.mem_univ, true_and, Finset.mem_union]
    omega
  have hdisj : Disjoint (Finset.univ.filter (fun c : Fin N => c.val < a))
      (Finset.univ.filter (fun c : Fin N => a ≤ c.val ∧ c.val < a + W)) := by
    rw [Finset.disjoint_left]
    intro c h1 h2
    simp only [Finset.mem_filter, Finset.mem_univ, true_and] at h1 h2
    omega
  rw [hsplit, Finset.sum_union hdisj]
  congr 1
  symm
  refine Finset.sum_bij (fun j _ => g j) ?_ ?_ ?_ ?_
  · intro j _
    have := hg j
    simp only [Finset.mem_filter, Finset.mem_univ, true_and]
    omega
  · intro j₁ _ j₂ _ h
    have h1 := hg j₁
    have h2 := hg j₂
    rw [h] at h1
    exact Fin.ext (by omega)
  · intro c hc
    simp only [Finset.mem_filter, Finset.mem_univ, true_and] at hc
    refine ⟨⟨c.val - a, by omega⟩, Finset.mem_univ _, Fin.ext ?_⟩
    rw [hg]
    simp only
    omega
  · intro j _
    rfl

/-! A nonempty sum of exponentials is positive, and shifting every entry by μ moves the logarithm of the sum by μ. -/

private theorem sum_exp_pos {N : ℕ} (hN : 0 < N) (z : Fin N → ℝ) : 0 < ∑ c, Real.exp (z c) :=
  Finset.sum_pos (fun c _ => Real.exp_pos _) ⟨⟨0, hN⟩, Finset.mem_univ _⟩

private theorem shift_log_sum {N : ℕ} (hN : 0 < N) (y : Fin N → ℝ) (μ : ℝ) :
    μ + Real.log (∑ c, Real.exp (y c - μ)) = Real.log (∑ c, Real.exp (y c)) := by
  have hpos : 0 < ∑ c, Real.exp (y c) := sum_exp_pos hN y
  have hsum : ∑ c, Real.exp (y c - μ) = (∑ c, Real.exp (y c)) * Real.exp (-μ) := by
    rw [Finset.sum_mul]
    refine Finset.sum_congr rfl (fun c _ => ?_)
    rw [← Real.exp_add, sub_eq_add_neg]
  rw [hsum, Real.log_mul hpos.ne' (Real.exp_pos _).ne', Real.log_exp]
  ring

/-- The logarithm, in the extended reals, of a nonempty sum of exponentials. -/
private theorem log_coe_sum_exp {N : ℕ} (hN : 0 < N) (z : Fin N → ℝ) :
    Ideal.log ((∑ c, Real.exp (z c) : ℝ) : EReal) = ((Real.log (∑ c, Real.exp (z c)) : ℝ) : EReal) := by
  rw [Ideal.log_coe, if_neg (not_le.mpr (sum_exp_pos hN z))]

/-- The exponential sum of all N columns. -/
private theorem partialSum_all {N : ℕ} (y : Fin N → ℝ) (μ : ℝ) :
    partialSum y N μ = ∑ c, Real.exp (y c - μ) := by
  unfold partialSum
  rw [Finset.filter_true_of_mem (fun c _ => c.isLt)]

/-- One tile's update, with every entry a real: the rescaled old sum plus the tile's sum is the sum over
    a + W columns at the new shift. -/
private theorem partialSum_step {N W a : ℕ} (y : Fin N → ℝ) (g : Fin W → Fin N)
    (hg : ∀ j, (g j).val = a + j.val) (μ μ' : ℝ) :
    partialSum y a μ * Real.exp (μ - μ') + ∑ j : Fin W, Real.exp (y (g j) - μ') = partialSum y (a + W) μ' := by
  unfold partialSum
  rw [sum_filter_lt_add (fun c => Real.exp (y c - μ')) g hg, Finset.sum_mul]
  congr 1
  refine Finset.sum_congr rfl (fun c _ => ?_)
  rw [← Real.exp_add]
  congr 1
  ring

/-- The first tile, from the pair `(−∞, 0)`. -/
theorem running_first {N W : ℕ} (hW : 0 < W) (hWN : W ≤ N) (y : Fin N → ℝ) (b : Fin W → EReal)
    (hb : ∀ j : Fin W, b j = ((y ⟨j.val, by omega⟩ : ℝ) : EReal)) :
    Running y W (max ⊥ (tileMax b))
      ((0 : EReal) * Ideal.exp (⊥ - max ⊥ (tileMax b)) + ∑ j, Ideal.exp (b j - max ⊥ (tileMax b))) := by
  obtain ⟨t, ht⟩ := fold_max_univ_coe hW b (fun j => ⟨_, hb j⟩)
  have hm : max ⊥ (tileMax b) = (t : EReal) := by
    unfold tileMax
    rw [ht]
    exact max_eq_right bot_le
  rw [hm]
  refine ⟨t, rfl, ?_⟩
  have hexp : ∀ j : Fin W,
      Ideal.exp (b j - (t : EReal)) = ((Real.exp (y ⟨j.val, by omega⟩ - t) : ℝ) : EReal) := by
    intro j
    rw [hb j, ← EReal.coe_sub, Ideal.exp_coe]
  rw [zero_mul, zero_add, Finset.sum_congr rfl (fun j _ => hexp j), ← coe_sum, EReal.coe_eq_coe_iff]
  have hstep := partialSum_step (a := 0) y (fun j : Fin W => (⟨j.val, by omega⟩ : Fin N))
    (fun j => (Nat.zero_add _).symm) t t
  rw [Nat.zero_add] at hstep
  rw [← hstep]
  have h0 : partialSum y 0 t = 0 := by
    unfold partialSum
    rw [Finset.filter_false_of_mem (fun c _ => Nat.not_lt_zero _), Finset.sum_empty]
  rw [h0, zero_mul, zero_add]

/-- One more tile. -/
theorem running_step {N W a : ℕ} (hW : 0 < W) (haN : a + W ≤ N) (y : Fin N → ℝ) (b : Fin W → EReal)
    (hb : ∀ j : Fin W, b j = ((y ⟨a + j.val, by omega⟩ : ℝ) : EReal)) (m l : EReal) (h : Running y a m l) :
    Running y (a + W) (max m (tileMax b))
      (l * Ideal.exp (m - max m (tileMax b)) + ∑ j, Ideal.exp (b j - max m (tileMax b))) := by
  obtain ⟨μ, rfl, rfl⟩ := h
  obtain ⟨t, ht⟩ := fold_max_univ_coe hW b (fun j => ⟨_, hb j⟩)
  have hm : max (μ : EReal) (tileMax b) = ((max μ t : ℝ) : EReal) := by
    unfold tileMax
    rw [ht, coe_max]
  rw [hm]
  refine ⟨max μ t, rfl, ?_⟩
  generalize max μ t = μ'
  have hexp : ∀ j : Fin W,
      Ideal.exp (b j - (μ' : EReal)) = ((Real.exp (y ⟨a + j.val, by omega⟩ - μ') : ℝ) : EReal) := by
    intro j
    rw [hb j, ← EReal.coe_sub, Ideal.exp_coe]
  rw [← EReal.coe_sub, Ideal.exp_coe, Finset.sum_congr rfl (fun j _ => hexp j), ← coe_sum,
    ← EReal.coe_mul, ← EReal.coe_add, EReal.coe_eq_coe_iff]
  exact partialSum_step y (fun j : Fin W => (⟨a + j.val, by omega⟩ : Fin N)) (fun j => rfl) μ μ'

/-- After the whole row the pair gives the row's log-sum-exp. -/
theorem running_final {N : ℕ} (hN : 0 < N) (y : Fin N → ℝ) (m l : EReal) (h : Running y N m l) :
    m + Ideal.log l = ((lse y : ℝ) : EReal) := by
  obtain ⟨μ, rfl, rfl⟩ := h
  rw [partialSum_all, log_coe_sum_exp hN (fun c => y c - μ), ← EReal.coe_add, EReal.coe_eq_coe_iff]
  exact shift_log_sum hN y μ

/-- The two-pass form at one entry: with `M` the row's maximum (taken as `max (−∞) (fold max (−∞))`), the shifted
    entry less the logarithm of the shifted exponential sum (summed from `0`) is the entry less the log-sum-exp. -/
theorem two_pass_entry {N : ℕ} (hN : 0 < N) (y : Fin N → ℝ) (x : Fin N → EReal) (hx : ∀ c, x c = ((y c : ℝ) : EReal))
    (M : EReal) (hM : M = max ⊥ ((Finset.univ : Finset (Fin N)).fold max ⊥ x)) (c : Fin N) :
    (x c - M) - Ideal.log (0 + ∑ k, Ideal.exp (x k - M)) = ((y c - lse y : ℝ) : EReal) := by
  obtain ⟨t, ht⟩ := fold_max_univ_coe hN x (fun k => ⟨_, hx k⟩)
  have hMt : M = (t : EReal) := by
    rw [hM, ht]
    exact max_eq_right bot_le
  have hexp : ∀ k : Fin N, Ideal.exp (x k - (t : EReal)) = ((Real.exp (y k - t) : ℝ) : EReal) := by
    intro k
    rw [hx k, ← EReal.coe_sub, Ideal.exp_coe]
  rw [hMt, zero_add, Finset.sum_congr rfl (fun k _ => hexp k), ← coe_sum,
    log_coe_sum_exp hN (fun k => y k - t), hx c, ← EReal.coe_sub, ← EReal.coe_sub, EReal.coe_eq_coe_iff]
  unfold lse
  rw [← shift_log_sum hN y t]
  ring

/-- The streaming side's summand against the two-pass side's: `L − v = −(v − L)` on reals, read in the extended reals. -/
theorem sub_eq_neg_sub (L v : ℝ) : ((L : ℝ) : EReal) - ((v : ℝ) : EReal) = -(((v - L : ℝ)) : EReal) := by
  rw [← EReal.coe_sub, ← EReal.coe_neg, neg_sub]

end Cert.OnlineLse

end
-- ==== Proof.KernelPayloads.lean ====
/-
  The kernel body's stored values read at one row of a block, at the ideal instance.

  A grid point sees a [512, 3200] tile `x0` of the input and the two carried [512, 1] columns: the running maximum and
  the running exponential sum. At row `p` the new maximum is `max` of the old one and the tile row's maximum (the
  lane reduction from `−∞`); the new sum is the old sum rescaled by `exp (old maximum − new maximum)` plus the lane sum of
  `exp (entry − new maximum)`; the value written out at a row's last tile is `maximum + log sum`. The two resets are the
  constants `−∞` and `0`.
-/
import proofs.«102450_j40424232190041_1_alg».proof.Proof.Gen.KernelIdeal.Skeleton
import proofs.«102450_j40424232190041_1_alg».proof.Proof.OnlineLse
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.OnlineLse

/-! The accumulator word of the maximum, and the four index readings of the operations that are not pointwise. -/

/-- The word of the maximum's accumulator denotes `−∞`. -/
private theorem ofBits_negInf : Ideal.ofBits .f32 0xFF800000#32 = ⊥ := by
  simp [Ideal.ofBits, Ideal.ieee]

/-- The source index over row `p` with lane `k` inserted is `(p, k)`. -/
private theorem lift_row (p : Fin 512) (k : Fin 3200) :
    (reduces_S512x3200_S512).lift (ix1 p) k = ix2 p k := by
  funext c
  apply Fin.ext
  match c with
  | ⟨0, _⟩ => rfl
  | ⟨1, _⟩ => rfl

/-- The cast of a [512] vector to a [512, 1] column reads row `p` at `(p, 0)`: both have row-major position `p`. -/
private theorem cast_col {α : Type} (x : S512.Idx → α) (p : Fin 512) :
    shapeCast S512x1 x shapeCasts_S512_S512x1 (ix2 p (0 : Fin 1)) = x (ix1 p) := by
  refine shapeCast_apply x _ _ _ ?_
  rw [Shape.rowMajor_val_one, Shape.rowMajor_val_two]
  show p.val = p.val * 1 + 0
  omega

/-- The broadcast of a [512, 1] column along the lanes reads `(p, 0)` at every `(p, j)`. -/
private theorem bcast_col {α : Type} (x : S512x1.Idx → α) (p : Fin 512) (j : Fin 3200) :
    broadcastTo S512x3200 x broadcasts_S512x1_S512x3200 (ix2 p j) = x (ix2 p (0 : Fin 1)) := by
  refine broadcastTo_apply x _ _ _ ?_
  intro a
  match a with
  | ⟨0, _⟩ => rfl
  | ⟨1, _⟩ => rfl

/-- The lane maximum from `−∞` at row `p` is the fold of `max` from `−∞` over the row's entries. -/
private theorem rowMax (x : FVec Ideal S512x3200 .f32) (hφ : FKind.Formats .f32)
    (hacc : (0xFF800000#32 : BitVec 32) = FKind.maximumf.neutral .f32 hφ) (p : Fin 512) :
    (multiReduction (F := Ideal) .maximumf [1] S512 x 0xFF800000#32 reduces_S512x3200_S512 hφ hacc (ix1 p) : EReal)
      = tileMax fun j : Fin 3200 => (x (ix2 p j) : EReal) := by
  refine (Ideal.multiReduction_maximumf_single x _ _ hφ hacc (ix1 p)).trans ?_
  unfold tileMax
  have hf : (x ∘ (reduces_S512x3200_S512).lift (ix1 p)) = fun j : Fin 3200 => (x (ix2 p j) : EReal) :=
    funext fun k => congrArg x (lift_row p k)
  rw [hf]
  exact congrArg (fun b => (Finset.univ : Finset (Fin 3200)).fold max b fun j : Fin 3200 => (x (ix2 p j) : EReal)) ofBits_negInf

/-- The lane sum from `0` at row `p` is the sum of the row's entries. -/
private theorem rowSum (x : FVec Ideal S512x3200 .f32) (hφ : FKind.Formats .f32)
    (hacc : (0x00000000#32 : BitVec 32) = FKind.add.neutral .f32 hφ) (p : Fin 512) :
    (multiReduction (F := Ideal) .add [1] S512 x 0x00000000#32 reduces_S512x3200_S512 hφ hacc (ix1 p) : EReal)
      = ∑ j : Fin 3200, (x (ix2 p j) : EReal) := by
  refine (Ideal.multiReduction_add_single x _ _ hφ hacc (ix1 p)).trans ?_
  exact Finset.sum_congr rfl fun k _ => congrArg x (lift_row p k)

/-- The reset of the running maximum is `−∞` at every row. -/
theorem pay1_apply (p : Fin 512) : (k0_pay1 (F := Ideal) (ix2 p (0 : Fin 1)) : EReal) = ⊥ := by
  unfold k0_pay1
  rw [shapeCast_self]
  exact ofBits_negInf

/-- The reset of the running sum is `0` at every row. -/
theorem pay2_apply (p : Fin 512) : (k0_pay2 (F := Ideal) (ix2 p (0 : Fin 1)) : EReal) = 0 := by
  unfold k0_pay2
  rw [shapeCast_self]
  exact Ideal.ofBits_zero_f32

/-- The new running maximum at row `p`: the old one against the tile row's maximum. -/
theorem pay3_apply (x0 : Vec Ideal S512x3200 .f32) (v6 : Vec Ideal S512x1 .f32) (p : Fin 512) :
    (k0_pay3 (F := Ideal) x0 v6 (ix2 p (0 : Fin 1)) : EReal)
      = max (v6 (ix2 p (0 : Fin 1)) : EReal) (tileMax fun j : Fin 3200 => (x0 (ix2 p j) : EReal)) := by
  unfold k0_pay3
  refine congrArg (max (v6 (ix2 p (0 : Fin 1)) : EReal)) ?_
  refine (cast_col _ p).trans ?_
  exact rowMax x0 _ _ p

/-- The value stored back into the running maximum is that maximum. -/
theorem pay5_apply (x0 : Vec Ideal S512x3200 .f32) (v6 : Vec Ideal S512x1 .f32) (p : Fin 512) :
    (k0_pay5 (F := Ideal) x0 v6 (ix2 p (0 : Fin 1)) : EReal) = (k0_pay3 (F := Ideal) x0 v6 (ix2 p (0 : Fin 1)) : EReal) := by
  unfold k0_pay5
  rw [shapeCast_self]

/-- The new running sum at row `p`: the old sum `v11` rescaled by `exp (v8 − new maximum)`, plus the tile row's
    exponentials shifted by the new maximum. -/
theorem pay4_apply (x0 : Vec Ideal S512x3200 .f32) (v6 v8 v11 : Vec Ideal S512x1 .f32) (p : Fin 512) :
    (k0_pay4 (F := Ideal) x0 v6 v8 v11 (ix2 p (0 : Fin 1)) : EReal)
      = (v11 (ix2 p (0 : Fin 1)) : EReal)
          * Ideal.exp ((v8 (ix2 p (0 : Fin 1)) : EReal) - (k0_pay3 (F := Ideal) x0 v6 (ix2 p (0 : Fin 1)) : EReal))
        + ∑ j : Fin 3200, Ideal.exp ((x0 (ix2 p j) : EReal) - (k0_pay3 (F := Ideal) x0 v6 (ix2 p (0 : Fin 1)) : EReal)) := by
  unfold k0_pay4
  rw [shapeCast_self]
  refine congrArg (fun t : EReal => (v11 (ix2 p (0 : Fin 1)) : EReal)
          * Ideal.exp ((v8 (ix2 p (0 : Fin 1)) : EReal) - (k0_pay3 (F := Ideal) x0 v6 (ix2 p (0 : Fin 1)) : EReal)) + t) ?_
  refine (cast_col _ p).trans ?_
  refine (rowSum _ _ _ p).trans ?_
  refine Finset.sum_congr rfl fun j _ => ?_
  show Ideal.exp ((x0 (ix2 p j) : EReal) - broadcastTo S512x3200 (k0_pay3 (F := Ideal) x0 v6) broadcasts_S512x1_S512x3200 (ix2 p j)) = _
  rw [bcast_col]

/-- The value written to the output at a row's last tile: maximum plus the logarithm of the sum. -/
theorem pay6_apply (v28 v29 : Vec Ideal S512x1 .f32) (p : Fin 512) :
    (k0_pay6 (F := Ideal) v28 v29 (ix2 p (0 : Fin 1)) : EReal)
      = (v28 (ix2 p (0 : Fin 1)) : EReal) + Ideal.log (v29 (ix2 p (0 : Fin 1)) : EReal) := by
  unfold k0_pay6
  rfl

end Cert.KernelIdeal.Payloads

end
-- ==== Proof.KernelLse.lean ====
/-
  The kernel's output array: every row's log-sum-exp.

  Row `b` of the [2048, 32000] input lies in row block `b / 512`; the ten grid points of that row block see its ten
  tiles of 3200 columns in order. By induction over the grid points the two carried columns, at block row `p`, are a
  running pair (a real maximum-like shift and the exponential sum of the columns seen so far) of row `512 · (t / 10) + p`:
  the first tile of a row block starts the pair from `(−∞, 0)`, each later tile advances it. At the tenth tile the pair has
  seen the whole row, the output block's row is `shift + log sum`, the row's log-sum-exp; the four flushed blocks tile
  the [2048, 1] output, so the array ends holding the log-sum-exp of every row.
-/
import proofs.«102450_j40424232190041_1_alg».proof.Proof.KernelCols
import proofs.«102450_j40424232190041_1_alg».proof.Proof.KernelPayloads
import proofs.«102450_j40424232190041_1_alg».proof.Proof.OnlineLse
import Idealize.ShloMosaic.Lib.Pipeline.Value
import Idealize.ShloMosaic.Lib.ValueIdx

set_option maxRecDepth 16384

noncomputable section

open scoped BigOperators

namespace Cert.KernelIdeal.Lse

open Cert.KernelIdeal Cert.KernelIdeal.Gen Cert.KernelIdeal.Cols Cert.KernelIdeal.Payloads Cert.OnlineLse
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The input array as the region finds it, at its literal type. -/
abbrev input (c : Dev nD) : Vec Ideal S2048x32000 .f32 := V m c main_arg0

/-- Row `b` of the input, each entry's real part. -/
def rowR (c : Dev nD) (b : Fin 2048) : Fin 32000 → ℝ := fun k => (input m c (ix2 b k) : EReal).toReal

/-- Every entry of the input is a real (what the precondition gives). -/
def RealInput (c : Dev nD) : Prop :=
  ∀ (b : Fin 2048) (k : Fin 32000), (input m c (ix2 b k) : EReal) = ((rowR m c b k : ℝ) : EReal)

/-- The grid has forty points. -/
theorem points : cfg0.N = 40 := N_0

/-- The input window's block at point `t` is block `(t / 10, t % 10)`. -/
theorem idx_in : ∀ t : Fin cfg0.N, win0_0.index t (0 : Fin 2) = t.val / 10 ∧ win0_0.index t (1 : Fin 2) = t.val % 10 :=
  (by decide +kernel : ∀ t : Fin grid0.N, _)

/-- The output window's block at point `t` is block `(t / 10, 0)`. -/
theorem idx_out : ∀ t : Fin cfg0.N, win0_1.index t (0 : Fin 2) = t.val / 10 ∧ win0_1.index t (1 : Fin 2) = 0 :=
  (by decide +kernel : ∀ t : Fin grid0.N, _)

/-- The input row that block row `p` of the point at position `n` belongs to. -/
def rowOf (n : ℕ) (hn : n < cfg0.N) (p : Fin 512) : Fin 2048 :=
  ⟨512 * (n / 10) + p.val, by have := lt_of_lt_of_eq hn points; have := p.isLt; omega⟩

/-- An entry of the tile at point `t` is the input's entry in row `512 · (t / 10) + p`, column `3200 · (t % 10) + j`. -/
theorem tile_apply (c : Dev nD) (t : Fin cfg0.N) (p : Fin 512) (j : Fin 3200) (k : Fin 32000)
    (hk : k.val = 3200 * (t.val % 10) + j.val) :
    (tile m c t (ix2 p j) : EReal) = (input m c (ix2 (rowOf t.val t.isLt p) k) : EReal) := by
  obtain ⟨e0, e1⟩ := idx_in t
  show V m c main_arg0 (((cfg0.win 0).blk t).view.emb (ix2 p j)) = V m c main_arg0 (ix2 (rowOf t.val t.isLt p) k)
  refine congrArg _ (funext fun a => Fin.ext ?_)
  match a with
  | ⟨0, _⟩ => show win0_0.index t (0 : Fin 2) * 512 + 1 * p.val = 512 * (t.val / 10) + p.val; omega
  | ⟨1, _⟩ => show win0_0.index t (1 : Fin 2) * 3200 + 1 * j.val = k.val; omega

/-- The columns after a row block's first tile, by position. -/
theorem first_at (c : Dev nD) (n : ℕ) (hn : n < cfg0.N) (h0 : n % 10 = 0) :
    maxCol m c n hn = k0_pay5 (tile m c ⟨n, hn⟩) (k0_pay1 (F := Ideal))
    ∧ sumCol m c n hn = k0_pay4 (tile m c ⟨n, hn⟩) (k0_pay1 (F := Ideal)) (k0_pay1 (F := Ideal)) (k0_pay2 (F := Ideal)) :=
  cols_first m c ⟨n, hn⟩ h0

/-- The columns after a later tile, by position. -/
theorem next_at (c : Dev nD) (n : ℕ) (hn : n + 1 < cfg0.N) (h0 : ¬(n + 1) % 10 = 0) :
    maxCol m c (n + 1) hn = k0_pay5 (tile m c ⟨n + 1, hn⟩) (maxCol m c n (Nat.lt_of_succ_lt hn))
    ∧ sumCol m c (n + 1) hn
        = k0_pay4 (tile m c ⟨n + 1, hn⟩) (maxCol m c n (Nat.lt_of_succ_lt hn)) (maxCol m c n (Nat.lt_of_succ_lt hn))
            (sumCol m c n (Nat.lt_of_succ_lt hn)) :=
  cols_next m c ⟨n + 1, hn⟩ h0

/-- THE INVARIANT. After the point at position `n`, at block row `p`, the two carried columns are a running pair of the
    input row `512 · (n / 10) + p` over its first `3200 · (n % 10 + 1)` columns. -/
theorem running_at (c : Dev nD) (hre : RealInput m c) : ∀ (n : ℕ) (hn : n < cfg0.N) (p : Fin 512),
    Running (rowR m c (rowOf n hn p)) (3200 * (n % 10 + 1))
      (maxCol m c n hn (ix2 p (0 : Fin 1)) : EReal) (sumCol m c n hn (ix2 p (0 : Fin 1)) : EReal) := by
  intro n
  induction n with
  | zero =>
    intro hn p
    obtain ⟨e1, e2⟩ := first_at m c 0 hn (Nat.zero_mod 10)
    rw [e1, e2, pay5_apply, pay4_apply, pay3_apply, pay1_apply, pay2_apply]
    refine running_first (N := 32000) (W := 3200) (by norm_num) (by norm_num) (rowR m c (rowOf 0 hn p))
      (fun j => (tile m c ⟨0, hn⟩ (ix2 p j) : EReal)) (fun j => ?_)
    exact (tile_apply m c ⟨0, hn⟩ p j ⟨j.val, by have := j.isLt; omega⟩ (by show j.val = 3200 * (0 % 10) + j.val; omega)).trans
      (hre _ _)
  | succ n ih =>
    intro hn p
    have hN : n + 1 < 40 := lt_of_lt_of_eq hn points
    by_cases h0 : (n + 1) % 10 = 0
    · obtain ⟨e1, e2⟩ := first_at m c (n + 1) hn h0
      rw [e1, e2, pay5_apply, pay4_apply, pay3_apply, pay1_apply, pay2_apply]
      have h3 : 3200 * ((n + 1) % 10 + 1) = 3200 := by omega
      rw [h3]
      refine running_first (N := 32000) (W := 3200) (by norm_num) (by norm_num) (rowR m c (rowOf (n + 1) hn p))
        (fun j => (tile m c ⟨n + 1, hn⟩ (ix2 p j) : EReal)) (fun j => ?_)
      exact (tile_apply m c ⟨n + 1, hn⟩ p j ⟨j.val, by have := j.isLt; omega⟩
        (by show j.val = 3200 * ((n + 1) % 10) + j.val; omega)).trans (hre _ _)
    · obtain ⟨e1, e2⟩ := next_at m c n hn h0
      rw [e1, e2, pay5_apply, pay4_apply, pay3_apply]
      have hrow : rowOf (n + 1) hn p = rowOf n (Nat.lt_of_succ_lt hn) p := Fin.ext (by show 512 * ((n + 1) / 10) + p.val = 512 * (n / 10) + p.val; omega)
      have h3 : 3200 * ((n + 1) % 10 + 1) = 3200 * (n % 10 + 1) + 3200 := by omega
      rw [hrow, h3]
      refine running_step (N := 32000) (W := 3200) (a := 3200 * (n % 10 + 1)) (by norm_num) (by omega)
        (rowR m c (rowOf n (Nat.lt_of_succ_lt hn) p)) (fun j => (tile m c ⟨n + 1, hn⟩ (ix2 p j) : EReal)) (fun j => ?_) _ _
        (ih (Nat.lt_of_succ_lt hn) p)
      have hj := j.isLt
      refine (tile_apply m c ⟨n + 1, hn⟩ p j ⟨3200 * (n % 10 + 1) + j.val, by omega⟩
        (by show 3200 * (n % 10 + 1) + j.val = 3200 * ((n + 1) % 10) + j.val; omega)).trans ?_
      rw [show rowOf (⟨n + 1, hn⟩ : Fin cfg0.N).val (⟨n + 1, hn⟩ : Fin cfg0.N).isLt p = rowOf n (Nat.lt_of_succ_lt hn) p from hrow]
      exact hre _ _

/-- At a row block's last tile the output block's row `y 0` is the log-sum-exp of its input row. -/
theorem out_value (c : Dev nD) (hre : RealInput m c) (n : ℕ) (hn : n < cfg0.N) (h9 : n % 10 = 9) (y : S512x1.Idx) :
    (outBlk m c n hn y : EReal) = ((lse (rowR m c (rowOf n hn ⟨(y 0).val, idx2_lt0 y⟩)) : ℝ) : EReal) := by
  obtain ⟨p, q, rfl⟩ : ∃ (p : Fin 512) (q : Fin 1), y = ix2 p q := ⟨y 0, y 1, eq_ix2 y⟩
  obtain rfl : q = 0 := Subsingleton.elim _ _
  rw [show outBlk m c n hn = k0_pay6 (maxCol m c n hn) (sumCol m c n hn) from out_last m c ⟨n, hn⟩ h9, pay6_apply]
  have h := running_at m c hre n hn p
  have hN : n < 40 := lt_of_lt_of_eq hn points
  rw [show 3200 * (n % 10 + 1) = 32000 by omega] at h
  exact running_final (by norm_num) _ _ _ h

/-- The array the output window ends holding: at row `b`, the log-sum-exp of input row `b`. -/
def lseCol (c : Dev nD) : S2048x1.Idx → Elt Ideal .f32 :=
  fun i => ((lse (rowR m c ⟨(i 0).val, idx2_lt0 i⟩) : ℝ) : EReal)

/-- WHAT A FLUSHING POINT WRITES BACK is its block of that array. -/
theorem flushed_eq (c : Dev nD) (hre : RealInput m c) (t : Fin cfg0.N) (hf : (cfg0.win 1).flush t = true) :
    (dats m 0 c).flushed 1 t = ((cfg0.win 1).blk t).view.read (Elt Ideal) (lseCol m c) := by
  have h9 : t.val % 10 = 9 := (flush0_1 t).mp hf
  obtain ⟨e0, e1⟩ := idx_out t
  show (cfg0.win 1).cut (grid0.coords t) ((dats m 0 c).after 1 t) = _
  rw [after0_1]
  funext y
  show (outBlk m c t.val t.isLt y : EReal) = lseCol m c (((cfg0.win 1).blk t).view.emb y)
  refine (out_value m c hre t.val t.isLt h9 y).trans ?_
  unfold lseCol
  refine congrArg (fun b => ((lse (rowR m c b) : ℝ) : EReal)) (Fin.ext ?_)
  show 512 * (t.val / 10) + (y 0).val = win0_1.index t (0 : Fin 2) * 512 + 1 * (y 0).val
  omega

/-- An index of the output array is in point `t`'s block iff each coordinate is in the block's range on its axis. -/
theorem mem_blk (t : Fin cfg0.N) (i : S2048x1.Idx) :
    i ∈ ((cfg0.win 1).blk t).view.set
      ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every index of the output array is in the block of its row block's last point, which is written back. -/
theorem covered (i : S2048x1.Idx) :
    ∃ t : Fin cfg0.N, (cfg0.win 1).flush t = true ∧ i ∈ ((cfg0.win 1).blk t).view.set := by
  have hi0 : (i 0).val < 2048 := idx2_lt0 i
  have hi1 : (i 1).val < 1 := idx2_lt1 i
  obtain ⟨t, ht⟩ : ∃ t : Fin cfg0.N, t.val = 10 * ((i 0).val / 512) + 9 := ⟨⟨10 * ((i 0).val / 512) + 9, by rw [points]; omega⟩, rfl⟩
  obtain ⟨e0, e1⟩ := idx_out t
  refine ⟨t, (flush0_1 t).mpr (by omega), ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

/-- THE OUTPUT ARRAY after the region: the log-sum-exp of every input row. -/
theorem lse_array (c : Dev nD) (hre : RealInput m c) : (dats m 0 c).arrAt 1 cfg0.N = lseCol m c :=
  (dats m 0 c).arrAt_eq_of_cover 1 (lseCol m c) (fun t hf => flushed_eq m c hre t hf) (covered)

end Cert.KernelIdeal.Lse

end
-- ==== Proof.KernelTail.lean ====
/-
  The kernel's host operations after the region, read back.

  After the kernel has written every row's log-sum-exp into a [2048, 1] array, @main reshapes it to [2048], wraps the
  negative row and column indices (`i < 0 ? i + n : i`), gathers the input at (row, column) and the log-sum-exp at
  row, subtracts, sums the 16384 differences from `0` and divides by `2048`. The operations are read in two stretches —
  the reshape and the index arithmetic up to the two index columns, then the join of the columns, the gathers and the
  arithmetic — each from any buffer contents.
-/
import proofs.«102450_j40424232190041_1_alg».proof.Proof.Gen.KernelIdeal.Frame
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.StableHlo
open Idealize.SL Idealize.SL.Sem

variable {F : FTy → Type} [FloatOps F]

/-- jnp's wrap of a negative index: `x < 0 ? x + n : x`, entry by entry. -/
def wrapNeg (n : BitVec 32) (x : IVec S16384 32) : IVec S16384 32 :=
  select (cmpi .slt x (broadcastInDim S16384 ![] bcast_S_S16384 (constantI S_ 32 0#32)))
    (addi x (broadcastInDim S16384 ![] bcast_S_S16384 (constantI S_ 32 n))) x

/-- A vector of indices as a [16384, 1] column of start indices. -/
def colOf (x : IVec S16384 32) : IVec S16384x1 32 :=
  broadcastInDim S16384x1 ![0] bcast_S16384_S16384x1_0 x

/-- The second stretch's result: from the reshaped log-sum-exp vector `y1`, the input `x0`, the row indices `x2` and the
    two index columns `i12`, `i13`. -/
def tailSum (y1 : FVec F S2048 .f32) (x0 : FVec F S2048x32000 .f32) (x2 : IVec S16384 32) (i12 i13 : IVec S16384x1 32) :
    FVec F S_ .f32 :=
  Host.divf
    (Host.reduceAdd
      (subf
        (Host.gather gather_S2048_S16384x1_S16384_n_0_n_n_0_1_1 y1 (colOf (wrapNeg 2048#32 x2)))
        (Host.gather gather_S2048x32000_S16384x2_S16384_n_01_n_n_01_1_11 x0
          (concatenate S16384x2 1 [⟨S16384x1, i12⟩, ⟨S16384x1, i13⟩] concatenates_S16384x1_S16384x1_S16384x2_d1)))
      (constant S_ .f32 0x00000000#32) reducesTo_S16384_S_d0 h_S_)
    (constant S_ .f32 0x45000000#32)

/-- The first stretch: the reshape and the index arithmetic, up to the two index columns. -/
abbrev opsIdx : List (HloOp τ sig (Elt F)) :=
  [ StableHlo.reshape main_v0 main_v1 rfl shapeCasts_S2048x1_S2048,
    StableHlo.nullary main_c (constantI S_ 32 0#32),
    StableHlo.unary main_c main_v2 (broadcastInDim S16384 ![] bcast_S_S16384 : (⟨S_, .i32⟩ : BufTy).Contents (Elt F) → (⟨S16384, .i32⟩ : BufTy).Contents (Elt F)),
    StableHlo.binary main_arg2 main_v2 main_v3 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 2048#32),
    StableHlo.unary main_c_0 main_v4 (broadcastInDim S16384 ![] bcast_S_S16384 : (⟨S_, .i32⟩ : BufTy).Contents (Elt F) → (⟨S16384, .i32⟩ : BufTy).Contents (Elt F)),
    StableHlo.binary main_arg2 main_v4 main_v5 (addi : (⟨S16384, .i32⟩ : BufTy).Contents (Elt F) → (⟨S16384, .i32⟩ : BufTy).Contents (Elt F) → (⟨S16384, .i32⟩ : BufTy).Contents (Elt F)),
    StableHlo.ternary main_v3 main_v5 main_arg2 main_v6 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_1 (constantI S_ 32 0#32),
    StableHlo.unary main_c_1 main_v7 (broadcastInDim S16384 ![] bcast_S_S16384 : (⟨S_, .i32⟩ : BufTy).Contents (Elt F) → (⟨S16384, .i32⟩ : BufTy).Contents (Elt F)),
    StableHlo.binary main_arg1 main_v7 main_v8 (cmpi .slt : (⟨S16384, .i32⟩ : BufTy).Contents (Elt F) → (⟨S16384, .i32⟩ : BufTy).Contents (Elt F) → (⟨S16384, .i1⟩ : BufTy).Contents (Elt F)),
    StableHlo.nullary main_c_2 (constantI S_ 32 32000#32),
    StableHlo.unary main_c_2 main_v9 (broadcastInDim S16384 ![] bcast_S_S16384 : (⟨S_, .i32⟩ : BufTy).Contents (Elt F) → (⟨S16384, .i32⟩ : BufTy).Contents (Elt F)),
    StableHlo.binary main_arg1 main_v9 main_v10 (addi : (⟨S16384, .i32⟩ : BufTy).Contents (Elt F) → (⟨S16384, .i32⟩ : BufTy).Contents (Elt F) → (⟨S16384, .i32⟩ : BufTy).Contents (Elt F)),
    StableHlo.ternary main_v8 main_v10 main_arg1 main_v11 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v6 main_v12 (broadcastInDim S16384x1 ![0] bcast_S16384_S16384x1_0 : (⟨S16384, .i32⟩ : BufTy).Contents (Elt F) → (⟨S16384x1, .i32⟩ : BufTy).Contents (Elt F)),
    StableHlo.unary main_v11 main_v13 (broadcastInDim S16384x1 ![0] bcast_S16384_S16384x1_0 : (⟨S16384, .i32⟩ : BufTy).Contents (Elt F) → (⟨S16384x1, .i32⟩ : BufTy).Contents (Elt F)) ]

/-- The second stretch: the join of the index columns, the gathers and the arithmetic. -/
abbrev opsSum : List (HloOp τ sig (Elt F)) :=
  [ StableHlo.binary main_v12 main_v13 main_v14 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_arg0 main_v14 main_v15 ((fun x i => Host.gather gather_S2048x32000_S16384x2_S16384_n_01_n_n_01_1_11 x i) : (⟨S2048x32000, .f32⟩ : BufTy).Contents (Elt F) → (⟨S16384x2, .i32⟩ : BufTy).Contents (Elt F) → (⟨S16384, .f32⟩ : BufTy).Contents (Elt F)),
    StableHlo.nullary main_c_3 (constantI S_ 32 0#32),
    StableHlo.unary main_c_3 main_v16 (broadcastInDim S16384 ![] bcast_S_S16384 : (⟨S_, .i32⟩ : BufTy).Contents (Elt F) → (⟨S16384, .i32⟩ : BufTy).Contents (Elt F)),
    StableHlo.binary main_arg2 main_v16 main_v17 (cmpi .slt : (⟨S16384, .i32⟩ : BufTy).Contents (Elt F) → (⟨S16384, .i32⟩ : BufTy).Contents (Elt F) → (⟨S16384, .i1⟩ : BufTy).Contents (Elt F)),
    StableHlo.nullary main_c_4 (constantI S_ 32 2048#32),
    StableHlo.unary main_c_4 main_v18 (broadcastInDim S16384 ![] bcast_S_S16384 : (⟨S_, .i32⟩ : BufTy).Contents (Elt F) → (⟨S16384, .i32⟩ : BufTy).Contents (Elt F)),
    StableHlo.binary main_arg2 main_v18 main_v19 (addi : (⟨S16384, .i32⟩ : BufTy).Contents (Elt F) → (⟨S16384, .i32⟩ : BufTy).Contents (Elt F) → (⟨S16384, .i32⟩ : BufTy).Contents (Elt F)),
    StableHlo.ternary main_v17 main_v19 main_arg2 main_v20 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v20 main_v21 (broadcastInDim S16384x1 ![0] bcast_S16384_S16384x1_0 : (⟨S16384, .i32⟩ : BufTy).Contents (Elt F) → (⟨S16384x1, .i32⟩ : BufTy).Contents (Elt F)),
    StableHlo.binary main_v1 main_v21 main_v22 ((fun x i => Host.gather gather_S2048_S16384x1_S16384_n_0_n_n_0_1_1 x i) : (⟨S2048, .f32⟩ : BufTy).Contents (Elt F) → (⟨S16384x1, .i32⟩ : BufTy).Contents (Elt F) → (⟨S16384, .f32⟩ : BufTy).Contents (Elt F)),
    StableHlo.binary main_v22 main_v15 main_v23 (subf : (⟨S16384, .f32⟩ : BufTy).Contents (Elt F) → (⟨S16384, .f32⟩ : BufTy).Contents (Elt F) → (⟨S16384, .f32⟩ : BufTy).Contents (Elt F)),
    StableHlo.nullary main_cst (constant S_ .f32 0x00000000#32),
    StableHlo.binary main_v23 main_cst main_v24 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_5 (constant S_ .f32 0x45000000#32),
    StableHlo.binary main_v24 main_cst_5 main_v25 (Host.divf : (⟨S_, .f32⟩ : BufTy).Contents (Elt F) → (⟨S_, .f32⟩ : BufTy).Contents (Elt F) → (⟨S_, .f32⟩ : BufTy).Contents (Elt F)) ]

/-- The operations after the region are the two stretches, one after the other. -/
theorem ops_eq : (hostOps1 : List (HloOp τ sig (Elt F))) = opsIdx ++ opsSum := rfl

theorem idx_v1 (W : Valuation τ sig (Elt F)) :
    after opsIdx W (Proc.devRef .tc main_v1)
      = fun i => shapeCast S2048 (W (Proc.devRef .tc main_v0)) shapeCasts_S2048x1_S2048 i := by
  after_results_simp <;> rfl

theorem idx_v12 (W : Valuation τ sig (Elt F)) :
    after opsIdx W (Proc.devRef .tc main_v12) = colOf (wrapNeg 2048#32 (W (Proc.devRef .tc main_arg2))) := by
  after_results_simp <;> rfl

theorem idx_v13 (W : Valuation τ sig (Elt F)) :
    after opsIdx W (Proc.devRef .tc main_v13) = colOf (wrapNeg 32000#32 (W (Proc.devRef .tc main_arg1))) := by
  after_results_simp <;> rfl

theorem idx_arg0 (W : Valuation τ sig (Elt F)) :
    after opsIdx W (Proc.devRef .tc main_arg0) = W (Proc.devRef .tc main_arg0) := by
  after_results_simp <;> rfl

theorem idx_arg2 (W : Valuation τ sig (Elt F)) :
    after opsIdx W (Proc.devRef .tc main_arg2) = W (Proc.devRef .tc main_arg2) := by
  after_results_simp <;> rfl

theorem sum_v25 (W : Valuation τ sig (Elt F)) :
    after opsSum W (Proc.devRef .tc main_v25)
      = tailSum (W (Proc.devRef .tc main_v1)) (W (Proc.devRef .tc main_arg0)) (W (Proc.devRef .tc main_arg2))
          (W (Proc.devRef .tc main_v12)) (W (Proc.devRef .tc main_v13)) := by
  after_results_simp <;> rfl

/-- THE TAIL, from any contents `W` of the buffers when the region has ended. -/
theorem tail_eq (W : Valuation τ sig (Elt F)) :
    after (hostOps1 (F := F)) W (Proc.devRef .tc main_v25)
      = tailSum (fun i => shapeCast S2048 (W (Proc.devRef .tc main_v0)) shapeCasts_S2048x1_S2048 i)
          (W (Proc.devRef .tc main_arg0)) (W (Proc.devRef .tc main_arg2))
          (colOf (wrapNeg 2048#32 (W (Proc.devRef .tc main_arg2)))) (colOf (wrapNeg 32000#32 (W (Proc.devRef .tc main_arg1)))) := by
  rw [ops_eq, StableHlo.after_append, sum_v25, idx_v1, idx_arg0, idx_arg2, idx_v12, idx_v13]

end Cert.KernelIdeal.Tail

end
-- ==== Proof.FiniteRows.lean ====
/-
  Under the precondition every entry of the float input is a real number.

  The precondition's function is `all (|x| < +∞)` over the [2048, 32000] input; read at the ideal instance an entry with
  `max x (−x) < ⊤` is neither `⊤` nor `⊥`, so it is the image of a real.
-/
import proofs.«102450_j40424232190041_1_alg».proof.Pre_finite_inputs
import proofs.«102450_j40424232190041_1_alg».proof.Proof.Gen.Pre_finite_inputs
import Idealize.ShloMosaic.PureOps.Ideal.Laws
import Idealize.ShloMosaic.Lib.ReduceAll
import Idealize.ShloMosaic.Lib.ValueIdx
import Mathlib.Data.EReal.Basic

noncomputable section

namespace Cert.FiniteRows

open Idealize.ShloMosaic Idealize.ShloMosaic.ValueIdx

/-- The bit pattern of `+∞` denotes `⊤`. -/
private theorem ofBits_inf : Ideal.ofBits .f32 0x7F800000#32 = ⊤ := by
  simp [Ideal.ofBits, Ideal.ieee]

/-- An extended real whose absolute value `max e (−e)` is below `⊤` is neither `⊤` nor `⊥`, so it is the image of
    a real, namely of `e.toReal`. -/
private theorem coe_toReal_of_abs_lt_top (e : EReal) (h : max e (-e) < ⊤) : e = ((e.toReal : ℝ) : EReal) := by
  have h1 : e ≠ ⊤ := by
    rintro rfl
    simp at h
  have h2 : e ≠ ⊥ := by
    rintro rfl
    simp at h
  exact (EReal.coe_toReal h1 h2).symm

/-- The comparison word of `a < b` being one means `a < b`. -/
private theorem lt_of_cmp_olt {a b : EReal} (h : Ideal.cmp .olt a b = 1#1) : a < b := by
  unfold Ideal.cmp at h
  by_contra hn
  simp [hn] at h

/-- If the precondition's function is all ones on the float input `x`, the entries of `x` are the images of a
    [2048, 32000] table of reals. -/
theorem real_of_pre (x : FVec Ideal Cert.Pre_finite_inputs.S2048x32000 .f32)
    (a1 a2 : IVec Cert.Pre_finite_inputs.S16384 32)
    (h : Cert.Pre_finite_inputs.fn (F := Ideal) x a1 a2 = fun _ => 1#1) :
    ∃ X : Fin 2048 → Fin 32000 → ℝ, ∀ (b : Fin 2048) (k : Fin 32000), x (ix2 b k) = ((X b k : ℝ) : EReal) := by
  -- the function's one result word is one
  have h0 := congrFun h ValueIdx.ix0
  dsimp only [Cert.Pre_finite_inputs.fn] at h0
  haveI : Subsingleton Cert.Pre_finite_inputs.S_.Idx := ⟨fun a b => funext fun d => d.elim0⟩
  -- a conjunction over every entry that is one is one at each entry: `|x i| < +∞` there
  have hall : ∀ i : Cert.Pre_finite_inputs.S2048x32000.Idx, max (x i) (-(x i)) < ⊤ := by
    intro i
    have hi := Host.reduce_andi_all _ _ _ _ _ h0 i
    have hc : Ideal.cmp .olt (max (x i) (-(x i))) (Ideal.ofBits .f32 0x7F800000#32) = 1#1 := hi
    rw [ofBits_inf] at hc
    exact lt_of_cmp_olt hc
  -- the table of the entries' real parts
  exact ⟨fun b k => (x (ix2 b k)).toReal, fun b k => coe_toReal_of_abs_lt_top _ (hall (ix2 b k))⟩

end Cert.FiniteRows

end
-- ==== Proof.KernelRun.lean ====
/-
  The idealized kernel's run, with its result named.

  When the region ends, the output window's array holds every row's log-sum-exp and every other buffer what it held;
  the host operations after it then compute, from those, `(0 + ∑_t (lse[row_t] − x[row_t, col_t])) / 2048`. The
  precondition makes every input entry a real, which is what the region's value needs.
-/
import proofs.«102450_j40424232190041_1_alg».proof.Defs
import proofs.«102450_j40424232190041_1_alg».proof.Proof.KernelLse
import proofs.«102450_j40424232190041_1_alg».proof.Proof.KernelTail
import proofs.«102450_j40424232190041_1_alg».proof.Proof.FiniteRows

set_option maxRecDepth 16384

noncomputable section

namespace Cert.KernelIdeal.Result

open Cert.KernelIdeal Cert.KernelIdeal.Gen Cert.KernelIdeal.Lse Cert.KernelIdeal.Tail
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- Under the precondition every entry of the input is a real. -/
theorem real_input (hpre : Cert.Pre_KernelIdeal m) (c : Dev nD) : RealInput m c := by
  obtain ⟨X, hX⟩ := Cert.FiniteRows.real_of_pre _ _ _ (hpre c)
  intro b k
  have h : (input m c (ix2 b k) : EReal) = ((X b k : ℝ) : EReal) := hX b k
  unfold rowR
  rw [h, EReal.toReal_coe]

/-- The buffers' contents when the region has ended: the pipeline's arrays as the run leaves them, the rest as launched. -/
abbrev afterRegion (c : Dev nD) : Valuation τ sig (Elt Ideal) :=
  Pipeline.withArrays (cfgs 0).spec c (V0 m c) fun w => (dats m 0 c).arrAt w (cfgs 0).N

/-- The output window's array holds every row's log-sum-exp. -/
theorem region_v0 (c : Dev nD) (hre : RealInput m c) : afterRegion m c (Proc.devRef .tc main_v0) = lseCol m c :=
  (Pipeline.withArrays_arr spec0 launch0.win.arr_inj c _ _ 1).trans (lse_array m c hre)

/-- The input array is as launched. -/
theorem region_arg0 (c : Dev nD) : afterRegion m c (Proc.devRef .tc main_arg0) = m ((c.tc : Thread nD τ).loc main_arg0) :=
  (Pipeline.withArrays_arr spec0 launch0.win.arr_inj c _ _ 0).trans
    (((dats m 0 c).arrAt_in 0 rfl _).trans ((A_eq m c 0).trans (V_main_arg0 m c)))

/-- The column indices are as launched. -/
theorem region_arg1 (c : Dev nD) : afterRegion m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans
    (V_main_arg1 m c)

/-- The row indices are as launched. -/
theorem region_arg2 (c : Dev nD) : afterRegion m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans
    (V_main_arg2 m c)

/-- The kernel's result: the host tail of the log-sum-exp column and the three arguments. -/
def result (c : Dev nD) : FVec Ideal S_ .f32 :=
  tailSum (fun i => shapeCast S2048 (lseCol m c) shapeCasts_S2048x1_S2048 i)
    (m ((c.tc : Thread nD τ).loc main_arg0)) (m ((c.tc : Thread nD τ).loc main_arg2))
    (colOf (wrapNeg 2048#32 (m ((c.tc : Thread nD τ).loc main_arg2))))
    (colOf (wrapNeg 32000#32 (m ((c.tc : Thread nD τ).loc main_arg1))))

/-- The result buffer after the host operations that follow the region. -/
theorem tail_value (c : Dev nD) (hre : RealInput m c) :
    Pipeline.afterTail₀ cfgs (dats m) 0 (V0 m) [hostOps1] c main_v25 = result m c := by
  unfold Pipeline.afterTail₀
  show StableHlo.after hostOps1 (afterRegion m c) (Proc.devRef .tc main_v25) = _
  rw [tail_eq, region_v0 m c hre, region_arg0, region_arg1, region_arg2]
  rfl

/-- THE RUN: every weakly fair execution terminates with the result buffer at `result` and the arguments unchanged. -/
theorem run (hre : ∀ c, RealInput m c) :
    θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v25 (Pipeline.mem_restRefs_of main_v25 (by decide) (by decide))).trans (tail_value m c (hre c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefEntry.lean ====
/-
  The reference's log-softmax read at one entry.

  The reference takes a row's maximum `M` (a fold of `max` from `−∞`, then `max` against `−∞` once more), subtracts it,
  sums the exponentials from `0`, takes the logarithm and subtracts it again: `(x − M) − log ∑_k exp (x_k − M)`.
  When the row's entries are the reals `X b ·` this is `X b k − log ∑_k exp (X b k)`, whatever `M` is.
-/
import proofs.«102450_j40424232190041_1_alg».proof.Proof.RefRead
import proofs.«102450_j40424232190041_1_alg».proof.Proof.OnlineLse
import Idealize.ShloMosaic.Lib.ValueIdx
import Idealize.ShloMosaic.PureOps.Ideal.Laws

noncomputable section

open scoped BigOperators

namespace Cert.ReferenceIdeal.RefEntry

open Cert.ReferenceIdeal Cert.ReferenceIdeal.PRead Idealize.ShloMosaic Idealize.ShloMosaic.ValueIdx Cert.OnlineLse

/-- The bit pattern of `−∞` reads as `⊥`. -/
private theorem ofBits_neg_inf : (FloatOps.ofBits (F := Ideal) .f32 0xFF800000#32 : EReal) = ⊥ := by
  show Ideal.ofBits .f32 0xFF800000#32 = ⊥
  simp [Ideal.ofBits, Ideal.ieee]

/-- The bit pattern of `+0` reads as `0`. -/
private theorem ofBits_pos_zero : (FloatOps.ofBits (F := Ideal) .f32 0x00000000#32 : EReal) = 0 := by
  show Ideal.ofBits .f32 0x00000000#32 = 0
  exact Ideal.ofBits_zero_f32

/-- The row-maximum stage at row `b`: the fold of `max` from `−∞` over the row's entries. -/
private theorem rowmax_apply (x0 : (⟨S2048x32000, .f32⟩ : BufTy).Contents (Elt Ideal)) (b : Fin 2048) :
    (val_main_call0_v0 (F := Ideal) x0 (ix1 b) : EReal)
      = (Finset.univ : Finset (Fin 32000)).fold max ⊥ (fun k => (x0 (ix2 b k) : EReal)) := by
  unfold val_main_call0_v0
  have hR : S2048x32000.Reduces [1] S2048 := by decide
  rw [Host.reduce_eq_fold_single _ _ _ Gen.reducesTo_S2048x32000_S2048_d1 hR Gen.h_S_ (ix1 b),
    val_main_call0_cst_apply, ofBits_neg_inf]
  have hl : (x0 ∘ hR.lift (ix1 b)) = fun k : Fin 32000 => x0 (ix2 b k) :=
    funext fun k => congrArg x0 (funext fun a => Fin.ext (by match a with | ⟨0, _⟩ => rfl | ⟨1, _⟩ => rfl))
  rw [hl]
  rfl

/-- The row's maximum as the reference takes it: `max` of `−∞` against the fold. -/
private abbrev rowM (x0 : (⟨S2048x32000, .f32⟩ : BufTy).Contents (Elt Ideal)) (b : Fin 2048) : EReal :=
  max ⊥ ((Finset.univ : Finset (Fin 32000)).fold max ⊥ (fun k => (x0 (ix2 b k) : EReal)))

/-! The composed index maps of the broadcasts and of the row sum, at entry `(b, k)`: each broadcast of a per-row value
    reads row `b`, and the sum's `j`-th term reads entry `(b, j)`. -/

private theorem idx_bcast (b : Fin 2048) (k : Fin 32000) :
    idx_main_call0_v3 (idx_main_call0_v4 (ix2 b k)) = ix1 b :=
  funext fun a => Fin.ext (by match a with | ⟨0, _⟩ => rfl)

private theorem idx_sum (b : Fin 2048) (k : Fin 32000) :
    idx_main_call0_v8 (idx_main_call0_v10 (ix2 b k)) = ix1 b :=
  funext fun a => Fin.ext (by match a with | ⟨0, _⟩ => rfl)

private theorem idx_col (b : Fin 2048) (j : Fin 32000) :
    idx_main_call0_v7 (ix1 b) j = ix2 b j :=
  funext fun a => Fin.ext (by match a with | ⟨0, _⟩ => rfl | ⟨1, _⟩ => rfl)

/-- The shifted entry: the entry less the row's maximum. -/
private theorem shifted_apply (x0 : (⟨S2048x32000, .f32⟩ : BufTy).Contents (Elt Ideal)) (b : Fin 2048) (k : Fin 32000) :
    (val_main_call0_v5 (F := Ideal) x0 (ix2 b k) : EReal) = (x0 (ix2 b k) : EReal) - rowM x0 b := by
  rw [val_main_call0_v5_apply, val_main_call0_v4_apply, val_main_call0_v3_apply, idx_bcast, val_main_call0_v2_apply,
    val_main_call0_v1_apply, val_main_call0_cst_0_apply, rowmax_apply, ofBits_neg_inf]
  rfl

/-- The called function's result at entry `(b, k)`, over an argument whose entries are the reals `X`. -/
theorem log_softmax_apply (x0 : (⟨S2048x32000, .f32⟩ : BufTy).Contents (Elt Ideal)) (X : Fin 2048 → Fin 32000 → ℝ)
    (hX : ∀ (b : Fin 2048) (k : Fin 32000), (x0 (ix2 b k) : EReal) = ((X b k : ℝ) : EReal)) (b : Fin 2048) (k : Fin 32000) :
    (val_main_v0 (F := Ideal) x0 (ix2 b k) : EReal) = ((X b k - lse (X b) : ℝ) : EReal) := by
  have hsum : (∑ j : Fin 32000, (val_main_call0_v6 (F := Ideal) x0 (idx_main_call0_v7 (ix1 b) j) : EReal))
      = ∑ j : Fin 32000, Ideal.exp ((x0 (ix2 b j) : EReal) - rowM x0 b) :=
    Finset.sum_congr rfl fun j _ => by
      rw [idx_col, val_main_call0_v6_apply, shifted_apply, Ideal.hostUnary_exp_def]
  rw [val_main_v0_apply, val_main_call0_v10_apply, val_main_call0_v9_apply, val_main_call0_v8_apply, idx_sum,
    val_main_call0_v7_apply, val_main_call0_cst_1_apply, ofBits_pos_zero, shifted_apply, hsum,
    Ideal.hostUnary_log_def, Ideal.subf_def]
  exact two_pass_entry (by decide) (X b) (fun j => (x0 (ix2 b j) : EReal)) (hX b) (rowM x0 b) rfl k

end Cert.ReferenceIdeal.RefEntry

end
-- ==== Proof.GatherRows.lean ====
/-
  The two host gathers of the kernel's entry point pick the same row.

  `preds[row_ids, flat_targets]` is a gather of a [2048, 32000] array at a [16384, 2] array of start indices whose
  column 0 is the (wrapped) row index and column 1 the (wrapped) column index; `lse[row_ids]` is a gather of a [2048]
  array at the [16384, 1] column of the same row indices. Each start index is read signed and clamped into its axis, so
  the row coordinate the first gather reads at target `j` is `min (row index j) 2047`, which is the coordinate the
  second gather reads.
-/
import proofs.«102450_j40424232190041_1_alg».proof.Proof.Gen.KernelIdeal
import Idealize.ShloMosaic.Lib.Pipeline.Value
import Idealize.ShloMosaic.Lib.StableHlo.Predicate
import Idealize.ShloMosaic.Lib.ValueIdx

noncomputable section

namespace Cert.KernelIdeal.GatherRows

open Cert.KernelIdeal Idealize.ShloMosaic Idealize.ShloMosaic.ValueIdx

/-- On an operand axis that is collapsed and start-indexed, with no batching axes, the operand index is the start index's
    component for that axis, read signed and clamped into the axis: the batching and the offset coordinates are zero and the
    slice size is one. -/
private theorem operandIdx_collapsed {s si t : Shape} (d : GatherDims s si t) {w : Nat} (j : t.Idx) (idx : IVec si w)
    (a : Fin s.rank) (hob : d.operandBatchingDims = []) (hc : a ∈ d.collapsedSliceDims) (hm : a ∈ d.startIndexMap) :
    (d.operandIdx j idx a).val
      = min (idx (d.siIdx j ⟨d.startIndexMap.idxOf a, List.idxOf_lt_length_iff.2 hm⟩)).toInt.toNat (s.size a - 1) := by
  have hb : a ∉ d.operandBatchingDims := by rw [hob]; exact List.not_mem_nil
  have hk : a ∉ d.sKept := by rw [GatherDims.mem_sKept]; exact fun h => h.1 hc
  show d.start j idx a + d.batchCoord j a + d.offCoord j a = _
  rw [d.batchCoord_eq_zero j a hb, d.offCoord_eq_zero j a hk]
  simp only [Nat.add_zero]
  unfold GatherDims.start
  rw [dif_pos hm, d.slice_collapsed a hc]

/-- Over a rank-1 result, the start-indices index of target `j` has `j`'s one coordinate on every axis but the index
    vector's: whichever batch axis of the result it reads is the result's only axis. -/
private theorem siIdx_val_batch {s si : Shape} {n : Nat} (d : GatherDims s si ⟨1, ![n]⟩) (j : (⟨1, ![n]⟩ : Shape).Idx)
    (c : Fin d.startIndexMap.length) (b : Fin si.rank) (hb : ¬ b.val = d.indexVectorDim) :
    (d.siIdx j c b).val = (j 0).val := by
  unfold GatherDims.siIdx
  rw [dif_neg hb]
  unfold GatherDims.siCoord
  simp only [Fin.val_cast]
  have e : ∀ X : Fin 1, (j X).val = (j 0).val := fun X => by rw [Subsingleton.elim X 0]
  exact e _

/-- On the index vector's axis the start-indices index has the component's position. -/
private theorem siIdx_val_ivd {s si t : Shape} (d : GatherDims s si t) (j : t.Idx) (c : Fin d.startIndexMap.length)
    (b : Fin si.rank) (hb : b.val = d.indexVectorDim) : (d.siIdx j c b).val = c.val := by
  unfold GatherDims.siIdx
  rw [dif_pos hb]

/-- The row coordinate of the rank-2 gather's operand index at target `j`, over start indices whose column 0 is `u`
    and column 1 is `v`, is the coordinate of the rank-1 gather's operand index over the column of `u`. -/
theorem row_agree (u v : IVec S16384 32) (j : S16384.Idx) :
    ((gather_S2048x32000_S16384x2_S16384_n_01_n_n_01_1_11.operandIdx j
        (concatenate S16384x2 1
          [⟨S16384x1, broadcastInDim S16384x1 ![0] Facts₀.bcast_S16384_S16384x1_0 u⟩,
           ⟨S16384x1, broadcastInDim S16384x1 ![0] Facts₀.bcast_S16384_S16384x1_0 v⟩]
          Facts₀.concatenates_S16384x1_S16384x1_S16384x2_d1)) 0).val
      = ((gather_S2048_S16384x1_S16384_n_0_n_n_0_1_1.operandIdx j
        (broadcastInDim S16384x1 ![0] Facts₀.bcast_S16384_S16384x1_0 u)) 0).val := by
  -- both operand axes are collapsed and start-indexed: each side is its start index's component 0, clamped to 2047
  rw [operandIdx_collapsed gather_S2048x32000_S16384x2_S16384_n_01_n_n_01_1_11 j _ 0 rfl
      (List.mem_cons_self ..) (List.mem_cons_self ..),
    operandIdx_collapsed gather_S2048_S16384x1_S16384_n_0_n_n_0_1_1 j _ 0 rfl
      (List.mem_cons_self ..) (List.mem_cons_self ..)]
  -- the start indices at (the target's coordinate, 0): column 0 of the concatenation is its first piece there
  have key : concatenate S16384x2 1
        [⟨S16384x1, broadcastInDim S16384x1 ![0] Facts₀.bcast_S16384_S16384x1_0 u⟩,
         ⟨S16384x1, broadcastInDim S16384x1 ![0] Facts₀.bcast_S16384_S16384x1_0 v⟩]
        Facts₀.concatenates_S16384x1_S16384x1_S16384x2_d1
        (gather_S2048x32000_S16384x2_S16384_n_01_n_n_01_1_11.siIdx j
          ⟨List.idxOf 0 gather_S2048x32000_S16384x2_S16384_n_01_n_n_01_1_11.startIndexMap,
            List.idxOf_lt_length_iff.2 (List.mem_cons_self ..)⟩)
      = broadcastInDim S16384x1 ![0] Facts₀.bcast_S16384_S16384x1_0 u
        (gather_S2048_S16384x1_S16384_n_0_n_n_0_1_1.siIdx j
          ⟨List.idxOf 0 gather_S2048_S16384x1_S16384_n_0_n_n_0_1_1.startIndexMap,
            List.idxOf_lt_length_iff.2 (List.mem_cons_self ..)⟩) := by
    refine concatenate_pair_apply_left (t := S16384x2) (s₁ := S16384x1) (s₂ := S16384x1) 1 _ _ _ _ rfl _ ?_
    intro b
    by_cases hb : b.val = 1
    · -- the index vector's axis: both read component 0
      rw [siIdx_val_ivd gather_S2048_S16384x1_S16384_n_0_n_n_0_1_1 j _ b hb,
        siIdx_val_ivd gather_S2048x32000_S16384x2_S16384_n_01_n_n_01_1_11 j _ (b.cast rfl) hb]
      rfl
    · -- the batch axis: both read the target's coordinate
      rw [siIdx_val_batch gather_S2048_S16384x1_S16384_n_0_n_n_0_1_1 j _ b hb,
        siIdx_val_batch gather_S2048x32000_S16384x2_S16384_n_01_n_n_01_1_11 j _ (b.cast rfl) hb]
  rw [key]
  rfl

end Cert.KernelIdeal.GatherRows

end
-- ==== Proof.LibColumn.lean ====
/-
  A column recast as a vector, read at an entry: an `[a, 1]` array cast to `[a]` reads, at `i`, the column's entry
  `(i, 0)`. (The row-major position of `(i, 0)` in `[a, 1]` is `i`.)
-/
import Idealize.ShloMosaic.Lib.ValueIdx
import Idealize.ShloMosaic.Lib.Pipeline.Value

noncomputable section

namespace Cert.LibColumn

open Idealize.ShloMosaic Idealize.ShloMosaic.ValueIdx

/-- A column cast to a vector reads, at `i`, the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumn

end
-- ==== Proof.Bridge.lean ====
/-
  The two results are one extended real.

  Both programs end in `(0 + ∑_t s_t) / 2048` over the same 16384 targets, so it suffices that the summands agree. The
  two gathers of the kernel side read the input at `(row_t, col_t)` and the log-sum-exp vector at `row_t` (the same
  row: both read the wrapped row index, clamped into [0, 2047]); the reference gathers its log-softmax at the same
  `(row_t, col_t)` and negates. With every entry a real,
  `lse (row) − x = −((x) − lse (row))` is an identity of real numbers.
-/
import proofs.«102450_j40424232190041_1_alg».proof.Proof.KernelRun
import proofs.«102450_j40424232190041_1_alg».proof.Proof.RefEntry
import proofs.«102450_j40424232190041_1_alg».proof.Proof.GatherRows
import proofs.«102450_j40424232190041_1_alg».proof.Proof.LibColumn

set_option maxRecDepth 16384

noncomputable section

namespace Cert.Bridge

open Idealize.ShloMosaic Idealize.ShloMosaic.TcCoe Idealize.ShloMosaic.ValueIdx
open Idealize.SL Idealize.SL.Sem
open Cert.KernelIdeal.Lse Cert.KernelIdeal.Tail Cert.KernelIdeal.Result Cert.OnlineLse

variable (m : (ℓ : Loc Cert.KernelIdeal.nD Cert.KernelIdeal.τ Cert.KernelIdeal.sig) → Buf (Elt Ideal) ℓ)

/-- The reshaped log-sum-exp vector at row `b`. -/
theorem lse_vec_apply (c : Dev Cert.KernelIdeal.nD) (j : Cert.KernelIdeal.S2048.Idx) :
    (shapeCast Cert.KernelIdeal.S2048 (lseCol m c) Cert.KernelIdeal.Gen.shapeCasts_S2048x1_S2048 j : EReal)
      = ((lse (rowR m c ⟨(j 0).val, (j 0).isLt⟩) : ℝ) : EReal) := by
  obtain ⟨b, rfl⟩ : ∃ b : Fin 2048, j = ix1 b := ⟨j 0, eq_ix1 j⟩
  exact Cert.LibColumn.shapeCast_a1_a_apply (lseCol m c) _ b

/-- THE SUMMANDS AGREE: the reference's negated gathered log-softmax is the kernel side's gathered difference. -/
theorem summand_eq (c : Dev Cert.KernelIdeal.nD) (hre : RealInput m c)
    (x0 : FVec Ideal Cert.KernelIdeal.S2048x32000 .f32) (hx0 : x0 = m ((c.tc : Thread Cert.KernelIdeal.nD Cert.KernelIdeal.τ).loc Cert.KernelIdeal.main_arg0))
    (x1 x2 : IVec Cert.KernelIdeal.S16384 32) :
    Host.negf (F := Ideal) (Cert.ReferenceIdeal.PRead.val_main_v14 (F := Ideal) x0 x1 x2)
      = subf (F := Ideal)
          (Host.gather Cert.KernelIdeal.gather_S2048_S16384x1_S16384_n_0_n_n_0_1_1
            (fun i => shapeCast Cert.KernelIdeal.S2048 (lseCol m c) Cert.KernelIdeal.Gen.shapeCasts_S2048x1_S2048 i)
            (colOf (wrapNeg 2048#32 x2)))
          (Host.gather Cert.KernelIdeal.gather_S2048x32000_S16384x2_S16384_n_01_n_n_01_1_11 x0
            (concatenate Cert.KernelIdeal.S16384x2 1
              [⟨Cert.KernelIdeal.S16384x1, colOf (wrapNeg 2048#32 x2)⟩, ⟨Cert.KernelIdeal.S16384x1, colOf (wrapNeg 32000#32 x1)⟩]
              Cert.KernelIdeal.Gen.concatenates_S16384x1_S16384x1_S16384x2_d1)) := by
  funext t
  -- the (row, column) the rank-2 gather reads at target `t`
  obtain ⟨q, hq⟩ : ∃ q : Cert.KernelIdeal.S2048x32000.Idx, q = Cert.KernelIdeal.gather_S2048x32000_S16384x2_S16384_n_01_n_n_01_1_11.operandIdx t
      (concatenate Cert.KernelIdeal.S16384x2 1
        [⟨Cert.KernelIdeal.S16384x1, colOf (wrapNeg 2048#32 x2)⟩, ⟨Cert.KernelIdeal.S16384x1, colOf (wrapNeg 32000#32 x1)⟩]
        Cert.KernelIdeal.Gen.concatenates_S16384x1_S16384x1_S16384x2_d1) := ⟨_, rfl⟩
  -- the row the rank-1 gather reads
  obtain ⟨j, hj⟩ : ∃ j : Cert.KernelIdeal.S2048.Idx, j = Cert.KernelIdeal.gather_S2048_S16384x1_S16384_n_0_n_n_0_1_1.operandIdx t
      (colOf (wrapNeg 2048#32 x2)) := ⟨_, rfl⟩
  have hrow : (q 0).val = (j 0).val := by
    rw [hq, hj]
    exact Cert.KernelIdeal.GatherRows.row_agree (wrapNeg 2048#32 x2) (wrapNeg 32000#32 x1) t
  show -(Cert.ReferenceIdeal.PRead.val_main_v0 (F := Ideal) x0
      (Cert.ReferenceIdeal.gather_S2048x32000_S16384x2_S16384_n_01_n_n_01_1_11.operandIdx t
        (Cert.ReferenceIdeal.PRead.val_main_v13 (F := Ideal) x1 x2)) : EReal)
    = (shapeCast Cert.KernelIdeal.S2048 (lseCol m c) Cert.KernelIdeal.Gen.shapeCasts_S2048x1_S2048
          (Cert.KernelIdeal.gather_S2048_S16384x1_S16384_n_0_n_n_0_1_1.operandIdx t (colOf (wrapNeg 2048#32 x2))) : EReal)
      - (x0 (Cert.KernelIdeal.gather_S2048x32000_S16384x2_S16384_n_01_n_n_01_1_11.operandIdx t
          (concatenate Cert.KernelIdeal.S16384x2 1
            [⟨Cert.KernelIdeal.S16384x1, colOf (wrapNeg 2048#32 x2)⟩, ⟨Cert.KernelIdeal.S16384x1, colOf (wrapNeg 32000#32 x1)⟩]
            Cert.KernelIdeal.Gen.concatenates_S16384x1_S16384x1_S16384x2_d1)) : EReal)
  have hqR : Cert.ReferenceIdeal.gather_S2048x32000_S16384x2_S16384_n_01_n_n_01_1_11.operandIdx t
        (Cert.ReferenceIdeal.PRead.val_main_v13 (F := Ideal) x1 x2) = q := by rw [hq]; rfl
  rw [hqR, ← hq, ← hj, lse_vec_apply]
  obtain ⟨b, k, rfl⟩ : ∃ (b : Fin 2048) (k : Fin 32000), q = ix2 b k := ⟨q 0, q 1, eq_ix2 q⟩
  have hjb : (⟨(j 0).val, (j 0).isLt⟩ : Fin 2048) = b := Fin.ext hrow.symm
  have hx : ∀ (b : Fin 2048) (k : Fin 32000), (x0 (ix2 b k) : EReal) = ((rowR m c b k : ℝ) : EReal) := by
    subst hx0; exact hre
  rw [hjb, Cert.ReferenceIdeal.RefEntry.log_softmax_apply x0 (rowR m c) hx b k, hx b k]
  exact (sub_eq_neg_sub _ _).symm

/-- THE RESULTS AGREE: the reference's composed result, at arguments equal to the kernel's, is the kernel's result. -/
theorem result_eq (c : Dev Cert.KernelIdeal.nD) (hre : RealInput m c) :
    Cert.ReferenceIdeal.PRead.val_main_v17 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = result m c := by
  unfold result tailSum Cert.ReferenceIdeal.PRead.val_main_v17 Cert.ReferenceIdeal.PRead.val_main_v16
    Cert.ReferenceIdeal.PRead.val_main_v15
  rw [summand_eq m c hre _ rfl]
  rfl

end Cert.Bridge

end
-- ==== Proof.lean ====
/-
  The certificate: a row-wise streaming log-sum-exp kernel with a host gather, subtract, sum and divide, against
  `log_softmax`, gather, negate, sum and divide.

  The kernel walks each block of 512 rows through its ten tiles of 3200 columns, carrying per row a shift `m` and the
  sum `l = ∑ exp (x − m)` of the columns seen so far, and writes `m + log l` at the tenth tile: the row's
  log-sum-exp, whatever the shifts were, because `exp (u) · exp (v) = exp (u + v)` on the reals — the precondition makes
  every entry a real. The host then sums `lse[row_t] − x[row_t, col_t]` over the 16384 targets and divides by 2048.
  The reference subtracts the row maximum, sums the exponentials, and gathers
  `−((x − max) − log ∑ exp (x − max))` at the same targets: the same real, summand by summand.
  The three frames are the generated runs (the reference's with the result dropped); the idealization rewrote nothing.
-/
import proofs.«102450_j40424232190041_1_alg».proof.Defs
import proofs.«102450_j40424232190041_1_alg».proof.Proof.Gen.Kernel
import proofs.«102450_j40424232190041_1_alg».proof.Proof.Gen.Kernel.Frame
import proofs.«102450_j40424232190041_1_alg».proof.Proof.Gen.KernelIdeal
import proofs.«102450_j40424232190041_1_alg».proof.Proof.Gen.KernelIdeal.Frame
import proofs.«102450_j40424232190041_1_alg».proof.Proof.Gen.ReferenceIdeal
import proofs.«102450_j40424232190041_1_alg».proof.Proof.Gen.Pre_finite_inputs
import proofs.«102450_j40424232190041_1_alg».proof.Proof.RefRun
import proofs.«102450_j40424232190041_1_alg».proof.Proof.RefRead
import proofs.«102450_j40424232190041_1_alg».proof.Proof.KernelRun
import proofs.«102450_j40424232190041_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.PValue.run (F := Ideal) m ρ)

/-- From memories agreeing on the arguments both idealized programs end with one result: the kernel's run names it,
    and the reference's composed term is that value. -/
theorem algebraic : Cert.algebraic_KernelIdeal_ReferenceIdeal := by
  intro m ρ m' ρ' hpre hagree
  have hre := Cert.KernelIdeal.Result.real_input m hpre
  refine ⟨fun c => Cert.KernelIdeal.Result.result m c, Cert.KernelIdeal.Result.run m ρ hre, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v17_eq, (hagree c).1, (hagree c).2.1, (hagree c).2.2]
  exact Cert.Bridge.result_eq m c (hre c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
